-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1000x1024 .f32 .bf16
  ∧ IdealRules.truncf_extf.Statement Cert.KernelIdeal.S1000x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S256 : Shape := ⟨1, ![256]⟩
abbrev S1024 : Shape := ⟨1, ![1024]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S256 : S_.BroadcastsInDim S256 (![] : Fin 0 → Fin S256.rank)
  reducesTo_S256_S_d0 : S256.ReducesTo [0] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S50000x1024 .f32) (main_arg1 : FVec F S256 .f32) (main_arg2 : IVec S1024 32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_c_3 : IVec S_ 32 := constantI S_ 32 256#32
  let main_v11 : IVec S1024 32 := broadcastInDim S1024 ![] bcast_S_S1024 main_c_3
  let main_v12 : IVec S1024 1 := cmpi .slt main_arg2 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S50000x1024 : Shape := ⟨2, ![50000, 1024]⟩
abbrev S256 : Shape := ⟨1, ![256]⟩
abbrev S1024 : Shape := ⟨1, ![1024]⟩
abbrev S1024x1 : Shape := ⟨2, ![1024, 1]⟩
abbrev S1x256 : Shape := ⟨2, ![1, 256]⟩
abbrev S1024x256 : Shape := ⟨2, ![1024, 256]⟩
abbrev S256x1024 : Shape := ⟨2, ![256, 1024]⟩
abbrev S50000x256 : Shape := ⟨2, ![50000, 256]⟩
abbrev S400x256 : Shape := ⟨2, ![400, 256]⟩
abbrev S1000x1024 : Shape := ⟨2, ![1000, 1024]⟩
abbrev S1000x256 : Shape := ⟨2, ![1000, 256]⟩
abbrev S8x256 : Shape := ⟨2, ![8, 256]⟩
abbrev S_ : Shape := ⟨0, ![]⟩
abbrev S5000x256 : Shape := ⟨2, ![5000, 256]⟩

abbrev nBuf : Space → Nat
  | .hbm => 34
  | .vmem => 19
  | .smem => 0
  | _ => 0

abbrev bufTy : (tb : Table) → Fin (tcTables nBuf tb) → BufTy
  | .hbm, ⟨0, _⟩ => ⟨S50000x1024, .f32⟩
  | .hbm, ⟨1, _⟩ => ⟨S256, .f32⟩
  | .hbm, ⟨2, _⟩ => ⟨S1024, .i32⟩
  | .hbm, ⟨3, _⟩ => ⟨S256, .i32⟩
  | .hbm, ⟨4, _⟩ => ⟨S1024x1, .i32⟩
  | .hbm, ⟨5, _⟩ => ⟨S1x256, .i32⟩
  | .hbm, ⟨6, _⟩ => ⟨S1024x256, .i32⟩
  | .hbm, ⟨7, _⟩ => ⟨S1024x256, .i32⟩
  | .hbm, ⟨8, _⟩ => ⟨S1024x256, .i1⟩
  | .hbm, ⟨9, _⟩ => ⟨S1024x256, .bf16⟩
  | .hbm, ⟨10, _⟩ => ⟨S256x1024, .bf16⟩
  | .hbm, ⟨11, _⟩ => ⟨S1x256, .f32⟩
  | .hbm, ⟨12, _⟩ => ⟨S50000x256, .f32⟩
  | .hbm, ⟨13, _⟩ => ⟨S50000x1024, .f32⟩
  | .hbm, ⟨14, _⟩ => ⟨S400x256, .f32⟩
  | .hbm, ⟨15, _⟩ => ⟨S400x256, .f32⟩
  | .hbm, ⟨16, _⟩ => ⟨S_, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S1x256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S50000x256, .f32⟩
  | .local _ .vmem, ⟨0, _⟩ => ⟨S1000x1024, .f32⟩
  | .local _ .vmem, ⟨1, _⟩ => ⟨S1000x1024, .f32⟩
  | .local _ .vmem, ⟨2, _⟩ => ⟨S1024x256, .bf16⟩
  | .local _ .vmem, ⟨3, _⟩ => ⟨S256x1024, .bf16⟩
  | .local _ .vmem, ⟨4, _⟩ => ⟨S1x256, .f32⟩
  | .local _ .vmem, ⟨5, _⟩ => ⟨S1000x256, .f32⟩
  | .local _ .vmem, ⟨6, _⟩ => ⟨S1000x256, .f32⟩
  | .local _ .vmem, ⟨7, _⟩ => ⟨S1000x1024, .f32⟩
  | .local _ .vmem, ⟨8, _⟩ => ⟨S1000x1024, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S5000x256, .f32⟩
  | .local _ .vmem, ⟨14, _⟩ => ⟨S5000x256, .f32⟩
  | .local _ .vmem, ⟨15, _⟩ => ⟨S1x256, .f32⟩
  | .local _ .vmem, ⟨16, _⟩ => ⟨S1x256, .f32⟩
  | .local _ .vmem, ⟨17, _⟩ => ⟨S5000x256, .f32⟩
  | .local _ .vmem, ⟨18, _⟩ => ⟨S5000x256, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S1024_S1024x1_0 : S1024.BroadcastsInDim S1024x1 (![0] : Fin 1 → Fin S1024x1.rank)
  bcast_S256_S1x256_1 : S256.BroadcastsInDim S1x256 (![1] : Fin 1 → Fin S1x256.rank)
  bcast_S1024x1_S1024x256_0_1 : S1024x1.BroadcastsInDim S1024x256 (![0, 1] : Fin 2 → Fin S1024x256.rank)
  bcast_S1x256_S1024x256_0_1 : S1x256.BroadcastsInDim S1024x256 (![0, 1] : Fin 2 → Fin S1024x256.rank)
  transposes_S1024x256_S256x1024_1_0 : S1024x256.Transposes [1, 0] S256x1024
  shapeCasts_S256_S1x256 : S256.ShapeCasts S1x256
  inb_S1000x1024_S1000x1024_0_0 : ∀ a, (![0, 0] : Fin 2 → Nat) a + S1000x1024.size a ≤ S1000x1024.size a
  h_S1000x1024 : 0 < S1000x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S1000x256_S1000x256_0_0 : ∀ a, (![0, 0] : Fin 2 → Nat) a + S1000x256.size a ≤ S1000x256.size a
  h_S1000x256 : 0 < S1000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S1000x256_S256 : S1000x256.Reduces [0] S256
  iota_S8x256_d0_w32 : S8x256.Iotas .tc 32 [0]
  broadcasts_S1x256_S8x256 : S1x256.Broadcasts S8x256
  inb_S8x256_S8x256_0_0 : ∀ a, (![0, 0] : Fin 2 → Nat) a + S8x256.size a ≤ S8x256.size a
  h_S8x256 : 0 < S8x256.numel
  reducesTo_S400x256_S256_d0 : S400x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  broadcasts_S1x256_S5000x256 : S1x256.Broadcasts S5000x256
  dot_S1000x1024_S1024x256_S1000x256_1_0_0_1_n_n_wf : DotDims.WF S1000x1024 S1024x256 S1000x256 [1] [0] [0] [1] [] []
  dot_S1000x256_S256x1024_S1000x1024_1_0_0_1_n_n_wf : DotDims.WF S1000x256 S256x1024 S1000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S50000x1024.size a
  hwx0_0 : ∀ i : grid0.Coords, EltTy.bits .f32 = 32 ∨ (Rect.block (s := S50000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S50000x256.size a
  hwx0_4 : ∀ i : grid0.Coords, EltTy.bits .f32 = 32 ∨ (Rect.block (s := S50000x256) S1000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x1024.size a ≤ S50000x1024.size a
  hwx0_5 : ∀ i : grid0.Coords, EltTy.bits .f32 = 32 ∨ (Rect.block (s := S50000x1024) S1000x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256.size a ≤ S400x256.size a
  hwx0_6 : ∀ i : grid0.Coords, EltTy.bits .f32 = 32 ∨ (Rect.block (s := S400x256) S8x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S400x256.size a
  hwx0_7 : ∀ i : grid0.Coords, EltTy.bits .f32 = 32 ∨ (Rect.block (s := S400x256) S8x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)

variable [Facts₀]

def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf
def dot_S1000x256_S256x1024_S1000x1024_1_0_0_1_n_n : DotDims S1000x256 S256x1024 S1000x1024 where
  lhsContracting := [1]
  rhsContracting := [0]
  lhsNonContracting := [0]
  rhsNonContracting := [1]
  lhsBatch := []
  rhsBatch := []
  wf := dot_S1000x256_S256x1024_S1000x1024_1_0_0_1_n_n_wf

abbrev win0_0 : Pipeline.Window sig grid0 :=
  Pipeline.Window.ofSpec (Memref.whole main_arg0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1000x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_2) S8x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_3) S8x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v9_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x1024 : Shape := ⟨2, ![50000, 1024]⟩
abbrev S256 : Shape := ⟨1, ![256]⟩
abbrev S1024 : Shape := ⟨1, ![1024]⟩
abbrev S1024x50000 : Shape := ⟨2, ![1024, 50000]⟩
abbrev S_ : Shape := ⟨0, ![]⟩
abbrev S256x50000 : Shape := ⟨2, ![256, 50000]⟩
abbrev S1024x1 : Shape := ⟨2, ![1024, 1]⟩
abbrev S50000x256 : Shape := ⟨2, ![50000, 256]⟩
abbrev S1x256 : Shape := ⟨2, ![1, 256]⟩

abbrev nBuf : Space → Nat
  | .hbm => 55
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S256, .f32⟩
  | .hbm, ⟨2, _⟩ => ⟨S1024, .i32⟩
  | .hbm, ⟨3, _⟩ => ⟨S50000x1024, .f32⟩
  | .hbm, ⟨4, _⟩ => ⟨S1024x50000, .f32⟩
  | .hbm, ⟨5, _⟩ => ⟨S_, .f32⟩
  | .hbm, ⟨6, _⟩ => ⟨S256x50000, .f32⟩
  | .hbm, ⟨7, _⟩ => ⟨S1024x1, .i32⟩
  | .hbm, ⟨8, _⟩ => ⟨S256x50000, .f32⟩
  | .hbm, ⟨9, _⟩ => ⟨S50000x256, .f32⟩
  | .hbm, ⟨10, _⟩ => ⟨S_, .f32⟩
  | .hbm, ⟨11, _⟩ => ⟨S50000x256, .f32⟩
  | .hbm, ⟨12, _⟩ => ⟨S50000x256, .f32⟩
  | .hbm, ⟨13, _⟩ => ⟨S50000x256, .f32⟩
  | .hbm, ⟨14, _⟩ => ⟨S_, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S1x256, .f32⟩
  | .hbm, ⟨20, _⟩ => ⟨S50000x256, .f32⟩
  | .hbm, ⟨21, _⟩ => ⟨S50000x256, .f32⟩
  | .hbm, ⟨22, _⟩ => ⟨S50000x256, .f32⟩
  | .hbm, ⟨23, _⟩ => ⟨S_, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S1x256, .f32⟩
  | .hbm, ⟨29, _⟩ => ⟨S50000x256, .f32⟩
  | .hbm, ⟨30, _⟩ => ⟨S50000x256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S1x256, .f32⟩
  | .hbm, ⟨36, _⟩ => ⟨S50000x256, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S1024x1, .i32⟩
  | .hbm, ⟨53, _⟩ => ⟨S50000x1024, .f32⟩
  | .hbm, ⟨54, _⟩ => ⟨S50000x1024, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_v34 : Ref sig .tc := ⟨.hbm, 46, rfl⟩
abbrev main_v35 : Ref sig .tc := ⟨.hbm, 47, rfl⟩
abbrev main_c_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  transposes_S50000x1024_S1024x50000_1_0 : S50000x1024.Transposes [1, 0] S1024x50000
  bcast_S_S256x50000 : S_.BroadcastsInDim S256x50000 (![] : Fin 0 → Fin S256x50000.rank)
  bcast_S1024_S1024x1_0 : S1024.BroadcastsInDim S1024x1 (![0] : Fin 1 → Fin S1024x1.rank)
  transposes_S256x50000_S50000x256_1_0 : S256x50000.Transposes [1, 0] S50000x256
  bcast_S_S50000x256 : S_.BroadcastsInDim S50000x256 (![] : Fin 0 → Fin S50000x256.rank)
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S1024 : S_.BroadcastsInDim S1024 (![] : Fin 0 → Fin S1024.rank)
  scatter_S256x50000_S1024x1_S1024x50000_1_0_0_1_wf : ScatterDims.WF S256x50000 S1024x1 S1024x50000 [1] [0] [0] 1
  gather_S50000x256_S1024x1_S50000x1024_0_1_n_n_1_1_500001_wf : GatherDims.WF S50000x256 S1024x1 S50000x1024 [0] [1] [] [1] [] 1 ![50000, 1]

variable [Facts₀]

def scatter_S256x50000_S1024x1_S1024x50000_1_0_0_1 : ScatterDims S256x50000 S1024x1 S1024x50000 where
  updateWindowDims := [1]
  insertedWindowDims := [0]
  scatterDimsToOperandDims := [0]
  indexVectorDim := 1
  wf := scatter_S256x50000_S1024x1_S1024x50000_1_0_0_1_wf
def gather_S50000x256_S1024x1_S50000x1024_0_1_n_n_1_1_500001 : GatherDims S50000x256 S1024x1 S50000x1024 where
  offsetDims := [0]
  collapsedSliceDims := [1]
  operandBatchingDims := []
  startIndicesBatchingDims := []
  startIndexMap := [1]
  indexVectorDim := 1
  sliceSizes := ![50000, 1]
  wf := gather_S50000x256_S1024x1_S50000x1024_0_1_n_n_1_1_500001_wf

class Facts : Prop extends Facts₀ where

variable [Facts]
-- ==== Proof.Spec.lean ====
/-
  The two programs as index-by-index functions of the argument arrays, on the extended reals.

  x is the 50000 x 1024 input, beta the 256 channel offsets, idx the 1024 channel numbers.  Column d of x belongs to
  channel c when idx d is the word of c ("hit").  The channel norm is the square root of the sum, over the columns of
  the channel, of the squares, plus a small constant; the first result centres and scales the norm by its mean and
  variance over the 50000 rows; the second divides x by (|norm + beta| + a constant) of the column's channel.

  The k-functions follow the kernel's arithmetic: the channel sums are products with the 0/1 membership weights, each
  taken twice (the value, and the value minus itself), the column sums of the norm are first taken over blocks of
  1000 rows and laid out one block per 8 rows, the variance is the mean square minus the squared mean, floored at
  zero, and the scaling is a product with the reciprocal square root.  The r-functions follow the reference.
-/
import Idealize.ShloMosaic.PureOps.Ideal.Laws
import Idealize.ShloMosaic.Lib.ValueIdx

noncomputable section

namespace Cert.Spec

open Idealize.ShloMosaic Idealize.ShloMosaic.ValueIdx

abbrev SX : Shape := ⟨2, ![50000, 1024]⟩
abbrev SB : Shape := ⟨1, ![256]⟩
abbrev SI : Shape := ⟨1, ![1024]⟩

/-- The constants, as the extended reals their words denote. -/
def e1 : EReal := Ideal.ofBits .f32 0x322BCC77#32
def e2 : EReal := Ideal.ofBits .f32 0x3C23D70A#32
def e3 : EReal := Ideal.ofBits .f32 0x3727C5AC#32
def cN : EReal := Ideal.ofBits .f32 0x47435000#32

/-- Column d belongs to channel c. -/
def hit (idx : IVec SI 32) (d : Fin 1024) (c : Fin 256) : Prop := idx (ix1 d) = BitVec.ofNat 32 c.val
instance (idx : IVec SI 32) (d : Fin 1024) (c : Fin 256) : Decidable (hit idx d c) := by unfold hit; infer_instance

/-- The membership weight: one on a hit, zero off it. -/
def wt (idx : IVec SI 32) (d : Fin 1024) (c : Fin 256) : EReal := if hit idx d c then 1 else 0

/-- Every input entry is a real number. -/
def IsReal {s : Shape} (x : FVec Ideal s .f32) : Prop := ∀ i, ∃ r : ℝ, (x i : EReal) = (r : EReal)
/-- Every channel number is one of the 256 channels. -/
def InRange (idx : IVec SI 32) : Prop := ∀ d : Fin 1024, ∃ c : Fin 256, idx (ix1 d) = BitVec.ofNat 32 c.val

/-! ## The kernel's arithmetic -/

def kSsq (x : FVec Ideal SX .f32) (idx : IVec SI 32) (n : Fin 50000) (c : Fin 256) : EReal :=
  (∑ d : Fin 1024, ((x (ix2 n d) : EReal) * x (ix2 n d)) * wt idx d c)
    + ∑ d : Fin 1024, (((x (ix2 n d) : EReal) * x (ix2 n d)) - ((x (ix2 n d) : EReal) * x (ix2 n d))) * wt idx d c
def kX0 (x : FVec Ideal SX .f32) (idx : IVec SI 32) (n : Fin 50000) (c : Fin 256) : EReal :=
  Ideal.sqrt (kSsq x idx n c + e1)
def kDiv (x : FVec Ideal SX .f32) (β : FVec Ideal SB .f32) (idx : IVec SI 32) (n : Fin 50000) (c : Fin 256) : EReal :=
  max (kX0 x idx n c + β (ix1 c)) (-(kX0 x idx n c + β (ix1 c))) + e2
def kDen (x : FVec Ideal SX .f32) (β : FVec Ideal SB .f32) (idx : IVec SI 32) (n : Fin 50000) (d : Fin 1024) : EReal :=
  (∑ c : Fin 256, kDiv x β idx n c * wt idx d c) + ∑ c : Fin 256, (kDiv x β idx n c - kDiv x β idx n c) * wt idx d c
def kX2 (x : FVec Ideal SX .f32) (β : FVec Ideal SB .f32) (idx : IVec SI 32) (n : Fin 50000) (d : Fin 1024) : EReal :=
  Ideal.div (x (ix2 n d)) (kDen x β idx n d)

/-- Row i of block t of 1000 rows. -/
def rowOf (t : Fin 50) (i : Fin 1000) : Fin 50000 := ⟨1000 * t.val + i.val, by have := t.isLt; have := i.isLt; omega⟩
/-- The block a row of the 400-row partial-sum arrays belongs to. -/
def blkOf (ρ : Fin 400) : Fin 50 := ⟨ρ.val / 8, by have := ρ.isLt; omega⟩

def kS1 (x : FVec Ideal SX .f32) (idx : IVec SI 32) (ρ : Fin 400) (c : Fin 256) : EReal :=
  if ρ.val % 8 = 0 then ∑ i : Fin 1000, kX0 x idx (rowOf (blkOf ρ) i) c else 0
def kS2 (x : FVec Ideal SX .f32) (idx : IVec SI 32) (ρ : Fin 400) (c : Fin 256) : EReal :=
  if ρ.val % 8 = 0 then ∑ i : Fin 1000, kX0 x idx (rowOf (blkOf ρ) i) c * kX0 x idx (rowOf (blkOf ρ) i) c else 0
def kMean (x : FVec Ideal SX .f32) (idx : IVec SI 32) (c : Fin 256) : EReal :=
  Ideal.div (∑ ρ : Fin 400, kS1 x idx ρ c) cN
def kVar (x : FVec Ideal SX .f32) (idx : IVec SI 32) (c : Fin 256) : EReal :=
  max (Ideal.div (∑ ρ : Fin 400, kS2 x idx ρ c) cN - kMean x idx c * kMean x idx c) 0
def kX1 (x : FVec Ideal SX .f32) (idx : IVec SI 32) (n : Fin 50000) (c : Fin 256) : EReal :=
  (kX0 x idx n c - kMean x idx c) * Ideal.rsqrt (kVar x idx c + e3)

/-! ## The reference's arithmetic -/

def rSsq (x : FVec Ideal SX .f32) (idx : IVec SI 32) (n : Fin 50000) (c : Fin 256) : EReal :=
  ∑ d : Fin 1024, if hit idx d c then (x (ix2 n d) : EReal) * x (ix2 n d) else 0
def rX0 (x : FVec Ideal SX .f32) (idx : IVec SI 32) (n : Fin 50000) (c : Fin 256) : EReal :=
  Ideal.sqrt (rSsq x idx n c + e1)
def rMean (x : FVec Ideal SX .f32) (idx : IVec SI 32) (c : Fin 256) : EReal :=
  Ideal.div (∑ n : Fin 50000, rX0 x idx n c) cN
def rVar (x : FVec Ideal SX .f32) (idx : IVec SI 32) (c : Fin 256) : EReal :=
  Ideal.div (∑ n : Fin 50000, (rX0 x idx n c - rMean x idx c) * (rX0 x idx n c - rMean x idx c)) cN
def rX1 (x : FVec Ideal SX .f32) (idx : IVec SI 32) (n : Fin 50000) (c : Fin 256) : EReal :=
  Ideal.div (rX0 x idx n c - rMean x idx c) (Ideal.sqrt (rVar x idx c + e3))

/-- A channel number as the reference's gather reads it: a negative one moved up by 256, then clamped into 0..255. -/
def wrap (a : BitVec 32) : BitVec 32 := Scalar.select (IntOp.cmpi .slt a 0#32) (IntOp.addi a 256#32) a
def seg (idx : IVec SI 32) (d : Fin 1024) : Fin 256 := ⟨min (wrap (idx (ix1 d))).toInt.toNat 255, by omega⟩

def rDiv (x : FVec Ideal SX .f32) (β : FVec Ideal SB .f32) (idx : IVec SI 32) (n : Fin 50000) (c : Fin 256) : EReal :=
  max (rX0 x idx n c + β (ix1 c)) (-(rX0 x idx n c + β (ix1 c))) + e2
def rX2 (x : FVec Ideal SX .f32) (β : FVec Ideal SB .f32) (idx : IVec SI 32) (n : Fin 50000) (d : Fin 1024) : EReal :=
  Ideal.div (x (ix2 n d)) (rDiv x β idx n (seg idx d))

end Cert.Spec

end
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«421808_j79748952752439_3_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.LibLayout2.lean ====
/-
  Small layout facts read at an entry: a column [M, 1] and a row [1, N] broadcast in dimensions [0, 1] to [M, N],
  a vector [N] broadcast in dimension [1] to one row [1, N], and a vector [M] recast as a column [M, 1].
-/
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

/-- A column broadcast over the columns reads, at (r, q), the column's entry of row r. -/
theorem bcast_col_apply {M N : Nat} (y : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h y (ix2 r q) = y (ix2 r (0 : Fin 1)) :=
  broadcastInDim_apply ![0, 1] h y (ix2 r q) (ix2 r (0 : Fin 1)) fun ax => by
    match ax with
    | ⟨0, _⟩ =>
      show r.val = if M = 1 then 0 else r.val
      split
      · have := r.isLt; omega
      · rfl
    | ⟨1, _⟩ => rfl

/-- A row broadcast over the rows reads, at (r, q), the row's entry of column q. -/
theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

/-- A vector broadcast to one row reads, at (u, q), the vector's entry q. -/
theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

/-- A vector recast as a column reads, at (r, u), the vector's entry r. -/
theorem shapeCast_a_a1_apply {M : Nat} (x : (⟨1, ![M]⟩ : Shape).Idx → α) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

end Cert.LibLayout2

end
-- ==== Proof.KBody.lean ====
/-
  What the two kernel bodies leave in their output blocks, entry by entry, on the extended reals.

  First body, on a block xb of 1000 rows, the 0/1 weights mb (1024 x 256) and mtb (256 x 1024), and the offsets row bb:
  the channel norm of a row is the square root of (the weighted sum of the squares, plus the weighted sum of the squares
  minus themselves, plus a constant); the quotient block divides xb by the weighted sum of (|norm + offset| + constant);
  the two 8-row blocks hold in their first row the column sums of the norms and of their squares, and zero below.
  Second body: (value - mean) times the reciprocal square root of (variance + constant).
-/
import proofs.«421808_j79748952752439_3_alg».proof.Proof.Gen.KernelIdeal.Frame
import proofs.«421808_j79748952752439_3_alg».proof.Proof.Spec
import proofs.«421808_j79748952752439_3_alg».proof.Proof.LibPlainAny
import proofs.«421808_j79748952752439_3_alg».proof.Proof.LibLayout2
import Idealize.ShloMosaic.Lib.ValueLayout

noncomputable section

namespace Cert.KBody

open Idealize.ShloMosaic Idealize.ShloMosaic.ValueIdx Cert.KernelIdeal Cert.KernelIdeal.Gen Cert.Spec

variable (xb : Vec Ideal S1000x1024 .f32) (mb : Vec Ideal S1024x256 .bf16) (mtb : Vec Ideal S256x1024 .bf16)
  (bb : Vec Ideal S1x256 .f32)

def bSsq (i : Fin 1000) (c : Fin 256) : EReal :=
  (∑ d : Fin 1024, ((xb (ix2 i d) : EReal) * xb (ix2 i d)) * (mb (ix2 d c) : EReal))
    + ∑ d : Fin 1024, (((xb (ix2 i d) : EReal) * xb (ix2 i d)) - ((xb (ix2 i d) : EReal) * xb (ix2 i d))) * (mb (ix2 d c) : EReal)
def bX0 (i : Fin 1000) (c : Fin 256) : EReal := Ideal.sqrt (bSsq xb mb i c + e1)
def bDiv (i : Fin 1000) (c : Fin 256) : EReal :=
  max (bX0 xb mb i c + (bb (ix2 (0 : Fin 1) c) : EReal)) (-(bX0 xb mb i c + (bb (ix2 (0 : Fin 1) c) : EReal))) + e2
def bDen (i : Fin 1000) (d : Fin 1024) : EReal :=
  (∑ c : Fin 256, bDiv xb mb bb i c * (mtb (ix2 c d) : EReal))
    + ∑ c : Fin 256, (bDiv xb mb bb i c - bDiv xb mb bb i c) * (mtb (ix2 c d) : EReal)

/-- The zero offsets of a whole block, however spelt. -/
theorem hz : (![0,0] : Fin 2 → Nat) = fun _ => 0 := by funext a; fin_cases a <;> rfl

/-- The norm block at an entry: the square root of the two weighted sums of squares plus the constant. -/
theorem pay4_apply (i : Fin 1000) (c : Fin 256) :
    (k0_pay4 (F := Ideal) xb mb (ix2 i c) : EReal) = bX0 xb mb i c := by
  have h1 := Cert.LibPlainAny.matmul_plain_zero_any 1000 1024 256 (φ₁ := .bf16) (φ₂ := .bf16)
    (truncf .bf16 (mulf xb xb) bitsLt_bf16_f32) mb i c
  have h2 := Cert.LibPlainAny.matmul_plain_zero_any 1000 1024 256 (φ₁ := .bf16) (φ₂ := .bf16)
    (truncf .bf16 (subf (mulf xb xb) (mulf xb xb)) bitsLt_bf16_f32) mb i c
  unfold k0_pay4
  rw [shapeCast_self]
  unfold bX0 bSsq e1
  refine congrArg Ideal.sqrt ?_
  refine congrArg₂ (· + ·) (congrArg₂ (· + ·) ?_ ?_) rfl
  · exact h1
  · exact h2

theorem out0_4_apply (i : Fin 1000) (c : Fin 256) :
    (out0_4 (F := Ideal) xb mb mtb bb (ix2 i c) : EReal) = bX0 xb mb i c := by
  unfold out0_4
  rw [View.canon_unit_zero hz]
  simp only [View.ld_unit_zero (S := S1000x1024) hz, View.ld_unit_zero (S := S1024x256) hz]
  exact pay4_apply xb mb i c

/-- A row broadcast along the first axis reads the row's entry of the same column. -/
theorem broadcast_row {α : Type} {M N : Nat} (b : (⟨2, ![1, N]⟩ : Shape).Idx → α)
    (hb : (⟨2, ![1, N]⟩ : Shape).Broadcasts ⟨2, ![M, N]⟩) (a : Fin M) (j : Fin N) :
    broadcastTo ⟨2, ![M, N]⟩ b hb (ix2 a j) = b (ix2 (0 : Fin 1) j) :=
  broadcastTo_apply b hb (ix2 a j) (ix2 (0 : Fin 1) j) (fun ax => by
    match ax with
    | ⟨0, _⟩ =>
      show 0 = if (1 : Nat) = 1 then 0 else a.val
      rw [if_pos rfl]
    | ⟨1, _⟩ =>
      show j.val = if N = 1 then 0 else j.val
      split
      · have := j.isLt; omega
      · rfl)

/-- The divisor block before the second pair of products: |norm + offset| + constant. -/
def pDiv : FVec Ideal S1000x256 .f32 :=
  addf (absf (addf (k0_pay4 (F := Ideal) xb mb) (broadcastTo S1000x256 bb broadcasts_S1x256_S1000x256)))
    (broadcast S1000x256 (FloatOps.ofBits .f32 0x3C23D70A#32))

/-- The divisor block at an entry. -/
theorem pDiv_apply (i : Fin 1000) (c : Fin 256) : (pDiv xb mb bb (ix2 i c) : EReal) = bDiv xb mb bb i c := by
  unfold pDiv bDiv e2
  show max (k0_pay4 (F := Ideal) xb mb (ix2 i c) + broadcastTo S1000x256 bb broadcasts_S1x256_S1000x256 (ix2 i c))
      (-(k0_pay4 (F := Ideal) xb mb (ix2 i c) + broadcastTo S1000x256 bb broadcasts_S1x256_S1000x256 (ix2 i c)))
      + Ideal.ofBits .f32 0x3C23D70A#32 = _
  rw [pay4_apply, broadcast_row]

/-- The quotient block at an entry: the input over the two weighted sums of the divisor. -/
theorem pay5_apply (i : Fin 1000) (d : Fin 1024) :
    (k0_pay5 (F := Ideal) xb mb bb mtb (ix2 i d) : EReal) = Ideal.div (xb (ix2 i d)) (bDen xb mb mtb bb i d) := by
  have h1 := Cert.LibPlainAny.matmul_plain_zero_any 1000 256 1024 (φ₁ := .bf16) (φ₂ := .bf16)
    (truncf .bf16 (pDiv xb mb bb) bitsLt_bf16_f32) mtb i d
  have h2 := Cert.LibPlainAny.matmul_plain_zero_any 1000 256 1024 (φ₁ := .bf16) (φ₂ := .bf16)
    (truncf .bf16 (subf (pDiv xb mb bb) (pDiv xb mb bb)) bitsLt_bf16_f32) mtb i d
  unfold k0_pay5
  simp only [shapeCast_self]
  unfold bDen
  refine congrArg (Ideal.div (xb (ix2 i d))) ?_
  refine congrArg₂ (· + ·) ?_ ?_
  · refine h1.trans (Finset.sum_congr rfl fun c _ => ?_)
    exact congrArg (· * (mtb (ix2 c d) : EReal)) (pDiv_apply xb mb bb i c)
  · refine h2.trans (Finset.sum_congr rfl fun c _ => ?_)
    refine congrArg (· * (mtb (ix2 c d) : EReal)) ?_
    show (pDiv xb mb bb (ix2 i c) : EReal) - pDiv xb mb bb (ix2 i c) = _
    rw [pDiv_apply]

theorem out0_5_apply (i : Fin 1000) (d : Fin 1024) :
    (out0_5 (F := Ideal) xb mb mtb bb (ix2 i d) : EReal) = Ideal.div (xb (ix2 i d)) (bDen xb mb mtb bb i d) := by
  unfold out0_5
  rw [View.canon_unit_zero hz]
  simp only [View.ld_unit_zero (S := S1000x1024) hz, View.ld_unit_zero (S := S1024x256) hz,
    View.ld_unit_zero (S := S1x256) hz, View.ld_unit_zero (S := S256x1024) hz]
  exact pay5_apply xb mb mtb bb i d

/-- The sum over the rows of a 1000 x 256 block, at column c. -/
theorem colsum_apply (src : FVec Ideal S1000x256 .f32) (hacc : (0x00000000#32 : BitVec 32) = 0x00000000#32) (c : Fin 256) :
    (multiReduction .add [0] S256 src 0x00000000#32 reduces_S1000x256_S256 (.inl rfl) hacc (ix1 c) : EReal)
      = ∑ k : Fin 1000, (src (ix2 k c) : EReal) := by
  refine (Ideal.multiReduction_add_single src 0x00000000#32 reduces_S1000x256_S256 (.inl rfl) hacc (ix1 c)).trans ?_
  show ∑ k : Fin 1000, (src (reduces_S1000x256_S256.lift (ix1 c) k) : EReal) = _
  refine Finset.sum_congr rfl fun k _ => congrArg src (funext fun a => Fin.ext ?_)
  match a with
  | ⟨0, _⟩ => rfl
  | ⟨1, _⟩ => rfl

/-- A vector of 256 entries recast as one row reads, at (u, c), its entry c. -/
theorem castRow_apply {α : Type} (v : S256.Idx → α) (h : S256.ShapeCasts S1x256) (u : Fin 1) (c : Fin 256) :
    shapeCast S1x256 v h (ix2 u c) = v (ix1 c) :=
  shapeCast_apply v h _ _ (by
    have hu : u.val = 0 := by omega
    rw [Shape.rowMajor_val_two, Shape.rowMajor_val_one]
    show c.val = u.val * 256 + c.val
    omega)

/-- The row test: a select on "row number is 0" is the if on the row. -/
theorem sel_row0 {α : Type} (r : Fin 8) (c : Fin 256) (A B : α) :
    Scalar.select (k0_pay1 (ix2 r c)) A B = if r.val = 0 then A else B := by
  have e : k0_pay1 (ix2 r c) = IntOp.cmpi .eq (BitVec.ofNat 32 r.val) 0#32 := by
    unfold k0_pay1
    show IntOp.cmpi .eq (iota .tc S8x256 32 [0] iota_S8x256_d0_w32 (ix2 r c)) 0#32 = _
    rw [iota_single_apply]
  rw [e]
  obtain ⟨n, hn⟩ := r
  interval_cases n <;> rfl

/-- The column sums of the norm, as one row. -/
theorem pay6_apply (u : Fin 1) (c : Fin 256) :
    (k0_pay6 (F := Ideal) xb mb (ix2 u c) : EReal) = ∑ i : Fin 1000, bX0 xb mb i c := by
  unfold k0_pay6
  refine (castRow_apply _ _ u c).trans ?_
  refine (colsum_apply _ rfl c).trans (Finset.sum_congr rfl fun i _ => ?_)
  exact pay4_apply xb mb i c

/-- The column sums of the squared norm. -/
theorem pay7_apply (c : Fin 256) :
    (k0_pay7 (F := Ideal) xb mb (ix1 c) : EReal) = ∑ i : Fin 1000, bX0 xb mb i c * bX0 xb mb i c := by
  unfold k0_pay7
  refine (colsum_apply _ rfl c).trans (Finset.sum_congr rfl fun i _ => ?_)
  show (k0_pay4 (F := Ideal) xb mb (ix2 i c) : EReal) * k0_pay4 (F := Ideal) xb mb (ix2 i c) = _
  rw [pay4_apply]

/-- A row laid out over 8 rows: the row itself in row 0, zero below. -/
theorem pay2_apply (v : FVec Ideal S1x256 .f32) (r : Fin 8) (c : Fin 256) :
    (k0_pay2 (F := Ideal) v (ix2 r c) : EReal) = if r.val = 0 then (v (ix2 (0 : Fin 1) c) : EReal) else 0 := by
  unfold k0_pay2
  rw [shapeCast_self]
  refine (sel_row0 r c _ _).trans ?_
  rw [broadcast_row]
  show (if r.val = 0 then (v (ix2 (0 : Fin 1) c) : EReal) else Ideal.ofBits .f32 0x00000000#32) = _
  rw [Ideal.ofBits_zero_f32]

/-- A vector laid out over 8 rows: the vector itself in row 0, zero below. -/
theorem pay3_apply (v : FVec Ideal S256 .f32) (r : Fin 8) (c : Fin 256) :
    (k0_pay3 (F := Ideal) v (ix2 r c) : EReal) = if r.val = 0 then (v (ix1 c) : EReal) else 0 := by
  unfold k0_pay3
  rw [shapeCast_self]
  refine (sel_row0 r c _ _).trans ?_
  rw [broadcast_row, castRow_apply]
  show (if r.val = 0 then (v (ix1 c) : EReal) else Ideal.ofBits .f32 0x00000000#32) = _
  rw [Ideal.ofBits_zero_f32]

theorem out0_6_apply (r : Fin 8) (c : Fin 256) :
    (out0_6 (F := Ideal) xb mb mtb bb (ix2 r c) : EReal) = if r.val = 0 then ∑ i : Fin 1000, bX0 xb mb i c else 0 := by
  unfold out0_6
  rw [View.canon_unit_zero hz]
  simp only [View.ld_unit_zero (S := S1000x1024) hz, View.ld_unit_zero (S := S1024x256) hz]
  rw [pay2_apply, pay6_apply]

theorem out0_7_apply (r : Fin 8) (c : Fin 256) :
    (out0_7 (F := Ideal) xb mb mtb bb (ix2 r c) : EReal)
      = if r.val = 0 then ∑ i : Fin 1000, bX0 xb mb i c * bX0 xb mb i c else 0 := by
  unfold out0_7
  rw [View.canon_unit_zero hz]
  simp only [View.ld_unit_zero (S := S1000x1024) hz, View.ld_unit_zero (S := S1024x256) hz]
  rw [pay3_apply, pay7_apply]

/-- The second body at an entry: (value - mean) times the reciprocal square root of (variance + constant). -/
theorem pay1b_apply (ab : Vec Ideal S5000x256 .f32) (va mu : Vec Ideal S1x256 .f32) (i : Fin 5000) (c : Fin 256) :
    (k1_pay1 (F := Ideal) ab va mu (ix2 i c) : EReal)
      = ((ab (ix2 i c) : EReal) - (mu (ix2 (0 : Fin 1) c) : EReal)) * Ideal.rsqrt ((va (ix2 (0 : Fin 1) c) : EReal) + e3) := by
  unfold k1_pay1
  simp only [shapeCast_self]
  show ((ab (ix2 i c) : EReal) - broadcastTo S5000x256 mu broadcasts_S1x256_S5000x256 (ix2 i c))
      * broadcastTo S5000x256
          (rsqrt (F := Ideal) (addf (F := Ideal) (φ := .f32) va (broadcast S1x256 (FloatOps.ofBits .f32 0x3727C5AC#32))))
          broadcasts_S1x256_S5000x256 (ix2 i c) = _
  rw [broadcast_row, broadcast_row]
  rfl

theorem out1_3_apply (ab : Vec Ideal S5000x256 .f32) (mu va : Vec Ideal S1x256 .f32) (i : Fin 5000) (c : Fin 256) :
    (out1_3 (F := Ideal) ab mu va (ix2 i c) : EReal)
      = ((ab (ix2 i c) : EReal) - (mu (ix2 (0 : Fin 1) c) : EReal)) * Ideal.rsqrt ((va (ix2 (0 : Fin 1) c) : EReal) + e3) := by
  unfold out1_3
  rw [View.canon_unit_zero hz]
  simp only [View.ld_unit_zero (S := S5000x256) hz, View.ld_unit_zero (S := S1x256) hz]
  exact pay1b_apply ab va mu i c

end Cert.KBody

end
-- ==== Proof.KArrays.lean ====
/-
  From blocks to arrays: what each output array of the two kernel launches holds after all grid points, entry by entry.

  First launch, 50 points: point t reads rows 1000 t .. 1000 t + 999 of the input and the whole weight arrays and
  offsets row, and writes rows 1000 t .. of the norm and quotient arrays and rows 8 t .. 8 t + 7 of the two partial-sum
  arrays; the blocks tile each array, so every entry is the body's entry of the one point whose block holds it.
  Second launch, 10 points of 5000 rows.
-/
import proofs.«421808_j79748952752439_3_alg».proof.Proof.Gen.KernelIdeal.Frame
import proofs.«421808_j79748952752439_3_alg».proof.Proof.KBody

noncomputable section

namespace Cert.KArrays

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b)) (c : Dev nD)
variable (x : FVec Ideal S50000x1024 .f32) (β : FVec Ideal S256 .f32) (idx : IVec S1024 32)

/-! ## The first launch -/

/-- The block index of every window at every point of the first launch: the row windows move with the point, the
    weight and offset windows stay at the origin. -/
theorem idxs0 : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = t.val ∧ win0_4.index t (1 : Fin 2) = 0
  ∧ win0_5.index t (0 : Fin 2) = t.val ∧ win0_5.index t (1 : Fin 2) = 0 :=
  (by decide +kernel : ∀ t : Fin grid0.N, _)

/-- Row i of the input block at point t is row 1000 t + i of the input. -/
theorem blk0_0 (t : Fin cfg0.N) (i : Fin 1000) (d : Fin 1024) (n : Fin 50000) (hn : n.val = 1000 * t.val + i.val) :
    (iblk0 V c 0 t : Vec Ideal S1000x1024 .f32) (ix2 i d) = V c main_arg0 (ix2 n d) := by
  obtain ⟨e0, e1, -⟩ := idxs0 t
  show V c main_arg0 (((cfg0.win 0).blk t).view.emb (ix2 i d)) = V c main_arg0 (ix2 n d)
  congr 1
  funext a; apply Fin.ext
  match a with
  | ⟨0, _⟩ => show win0_0.index t (0 : Fin 2) * 1000 + 1 * i.val = n.val; omega
  | ⟨1, _⟩ => show win0_0.index t (1 : Fin 2) * 1024 + 1 * d.val = d.val; omega

/-- The weight block is the whole weight array. -/
theorem blk0_1 (t : Fin cfg0.N) (d : Fin 1024) (cc : Fin 256) :
    (iblk0 V c 1 t : Vec Ideal S1024x256 .bf16) (ix2 d cc) = V c main_v6 (ix2 d cc) := by
  obtain ⟨-, -, e0, e1, -⟩ := idxs0 t
  show V c main_v6 (((cfg0.win 1).blk t).view.emb (ix2 d cc)) = V c main_v6 (ix2 d cc)
  congr 1
  funext a; apply Fin.ext
  match a with
  | ⟨0, _⟩ => show win0_1.index t (0 : Fin 2) * 1024 + 1 * d.val = d.val; omega
  | ⟨1, _⟩ => show win0_1.index t (1 : Fin 2) * 256 + 1 * cc.val = cc.val; omega

/-- The transposed weight block is the whole transposed weight array. -/
theorem blk0_2 (t : Fin cfg0.N) (cc : Fin 256) (d : Fin 1024) :
    (iblk0 V c 2 t : Vec Ideal S256x1024 .bf16) (ix2 cc d) = V c main_v7 (ix2 cc d) := by
  obtain ⟨-, -, -, -, e0, e1, -⟩ := idxs0 t
  show V c main_v7 (((cfg0.win 2).blk t).view.emb (ix2 cc d)) = V c main_v7 (ix2 cc d)
  congr 1
  funext a; apply Fin.ext
  match a with
  | ⟨0, _⟩ => show win0_2.index t (0 : Fin 2) * 256 + 1 * cc.val = cc.val; omega
  | ⟨1, _⟩ => show win0_2.index t (1 : Fin 2) * 1024 + 1 * d.val = d.val; omega

/-- The offsets block is the whole offsets row. -/
theorem blk0_3 (t : Fin cfg0.N) (cc : Fin 256) :
    (iblk0 V c 3 t : Vec Ideal S1x256 .f32) (ix2 (0 : Fin 1) cc) = V c main_v8 (ix2 (0 : Fin 1) cc) := by
  obtain ⟨-, -, -, -, -, -, e0, e1, -⟩ := idxs0 t
  show V c main_v8 (((cfg0.win 3).blk t).view.emb (ix2 (0 : Fin 1) cc)) = V c main_v8 (ix2 (0 : Fin 1) cc)
  congr 1
  funext a; apply Fin.ext
  match a with
  | ⟨0, _⟩ => show win0_3.index t (0 : Fin 2) * 1 + 1 * (0 : Fin 1).val = (0 : Fin 1).val; omega
  | ⟨1, _⟩ => show win0_3.index t (1 : Fin 2) * 256 + 1 * cc.val = cc.val; omega

/-- The body's norm at row i of point t's blocks is the norm of row 1000 t + i of the input. -/
theorem norm_blk (hX : ∀ n d, (V c main_arg0 (ix2 n d) : EReal) = x (ix2 n d))
    (hM : ∀ d cc, (V c main_v6 (ix2 d cc) : EReal) = wt idx d cc)
    (t : Fin cfg0.N) (i : Fin 1000) (cc : Fin 256) (n : Fin 50000) (hn : n.val = 1000 * t.val + i.val) :
    KBody.bX0 (iblk0 V c 0 t) (iblk0 V c 1 t) i cc = kX0 x idx n cc := by
  have h0 : ∀ d : Fin 1024, ((iblk0 V c 0 t : Vec Ideal S1000x1024 .f32) (ix2 i d) : EReal) = x (ix2 n d) :=
    fun d => (blk0_0 V c t i d n hn).trans (hX n d)
  have h1 : ∀ d : Fin 1024, ((iblk0 V c 1 t : Vec Ideal S1024x256 .bf16) (ix2 d cc) : EReal) = wt idx d cc :=
    fun d => (blk0_1 V c t d cc).trans (hM d cc)
  unfold KBody.bX0 kX0 KBody.bSsq kSsq
  simp only [h0, h1]

/-- The norm array as one function of the input. -/
def normArr : S50000x256.Idx → Elt Ideal .f32 := fun j => kX0 x idx (j 0) (j 1)

theorem flushed0_4 (hX : ∀ n d, (V c main_arg0 (ix2 n d) : EReal) = x (ix2 n d))
    (hM : ∀ d cc, (V c main_v6 (ix2 d cc) : EReal) = wt idx d cc) (t : Fin cfg0.N) :
    (dat0 (F := Ideal) V c).flushed 4 t = ((cfg0.win 4).blk t).view.read (Elt Ideal) (normArr x idx) := by
  show (cfg0.win 4).cut (grid0.coords t) ((dat0 V c).after 4 t) = _
  rw [after0_4]
  funext j
  obtain ⟨p, q, rfl⟩ : ∃ (p : Fin 1000) (q : Fin 256), j = ix2 p q := ⟨j 0, j 1, eq_ix2 j⟩
  have ht : t.val < 50 := Nat.lt_of_lt_of_eq t.isLt (show cfg0.N = 50 from N_0)
  obtain ⟨-, -, -, -, -, -, -, -, e0, e1, -⟩ := idxs0 t
  show (out0_4 (iblk0 V c 0 t) (iblk0 V c 1 t) (iblk0 V c 2 t) (iblk0 V c 3 t) (ix2 p q) : EReal)
    = normArr x idx (((cfg0.win 4).blk t).view.emb (ix2 p q))
  refine (KBody.out0_4_apply (iblk0 V c 0 t) (iblk0 V c 1 t) (iblk0 V c 2 t) (iblk0 V c 3 t) p q).trans ?_
  refine (norm_blk V c x idx hX hM t p q ⟨1000 * t.val + p.val, by have := p.isLt; omega⟩ rfl).trans ?_
  unfold normArr
  congr 1
  · apply Fin.ext
    show 1000 * t.val + p.val = win0_4.index t (0 : Fin 2) * 1000 + 1 * p.val
    omega
  · apply Fin.ext
    show q.val = win0_4.index t (1 : Fin 2) * 256 + 1 * q.val
    omega

/-- An entry of the norm array is in point t's block iff each coordinate is in the block's range on its axis. -/
theorem mem_blk0_4 (t : Fin cfg0.N) (j : S50000x256.Idx) :
    j ∈ ((cfg0.win 4).blk t).view.set ↔ ∀ a : Fin 2, win0_4.index t a * S1000x256.size a ≤ (j a).val
      ∧ (j a).val < win0_4.index t a * S1000x256.size a + S1000x256.size a := by
  show j ∈ ((View.whole main_v9_0).slice (win0_4.rect t)).set ↔ _
  rw [View.set_slice_whole, Rect.mem_set_unit]
  exact Iff.rfl

/-- Every entry of the norm array is in the block of the point its row falls in. -/
theorem tile0_4 (j : S50000x256.Idx) :
    ∃ t : Fin cfg0.N, (cfg0.win 4).flush t = true ∧ j ∈ ((cfg0.win 4).blk t).view.set := by
  have h0 : (j 0).val < 50000 := idx2_lt0 (n0 := 50000) (n1 := 256) j
  have h1 : (j 1).val < 256 := idx2_lt1 (n0 := 50000) (n1 := 256) j
  have hN : (j 0).val / 1000 < cfg0.N := by rw [show cfg0.N = 50 from N_0]; omega
  refine ⟨⟨(j 0).val / 1000, hN⟩, flush0_4 _, ?_⟩
  obtain ⟨-, -, -, -, -, -, -, -, e0, e1, -⟩ := idxs0 ⟨(j 0).val / 1000, hN⟩
  rw [mem_blk0_4]
  intro a
  match a with
  | ⟨0, _⟩ =>
    show win0_4.index ⟨(j 0).val / 1000, hN⟩ (0 : Fin 2) * 1000 ≤ (j 0).val
      ∧ (j 0).val < win0_4.index ⟨(j 0).val / 1000, hN⟩ (0 : Fin 2) * 1000 + 1000
    rw [e0]; show (j 0).val / 1000 * 1000 ≤ (j 0).val ∧ (j 0).val < (j 0).val / 1000 * 1000 + 1000; omega
  | ⟨1, _⟩ =>
    show win0_4.index ⟨(j 0).val / 1000, hN⟩ (1 : Fin 2) * 256 ≤ (j 1).val
      ∧ (j 1).val < win0_4.index ⟨(j 0).val / 1000, hN⟩ (1 : Fin 2) * 256 + 256
    omega

/-- The norm array after the first launch. -/
theorem arr0_4 (hX : ∀ n d, (V c main_arg0 (ix2 n d) : EReal) = x (ix2 n d))
    (hM : ∀ d cc, (V c main_v6 (ix2 d cc) : EReal) = wt idx d cc) (n : Fin 50000) (cc : Fin 256) :
    ((dat0 (F := Ideal) V c).arrAt 4 cfg0.N (ix2 n cc) : EReal) = kX0 x idx n cc :=
  congrFun ((dat0 (F := Ideal) V c).arrAt_eq_of_cover 4 (normArr x idx)
    (fun t _ => flushed0_4 V c x idx hX hM t) tile0_4) (ix2 n cc)

/-- The body's divisor at row i of point t's blocks is the divisor of row 1000 t + i. -/
theorem den_blk (hX : ∀ n d, (V c main_arg0 (ix2 n d) : EReal) = x (ix2 n d))
    (hM : ∀ d cc, (V c main_v6 (ix2 d cc) : EReal) = wt idx d cc)
    (hMT : ∀ cc d, (V c main_v7 (ix2 cc d) : EReal) = wt idx d cc)
    (hB : ∀ cc, (V c main_v8 (ix2 (0 : Fin 1) cc) : EReal) = β (ix1 cc))
    (t : Fin cfg0.N) (i : Fin 1000) (d : Fin 1024) (n : Fin 50000) (hn : n.val = 1000 * t.val + i.val) :
    KBody.bDen (iblk0 V c 0 t) (iblk0 V c 1 t) (iblk0 V c 2 t) (iblk0 V c 3 t) i d = kDen x β idx n d := by
  have h2 : ∀ cc : Fin 256, ((iblk0 V c 2 t : Vec Ideal S256x1024 .bf16) (ix2 cc d) : EReal) = wt idx d cc :=
    fun cc => (blk0_2 V c t cc d).trans (hMT cc d)
  have h3 : ∀ cc : Fin 256, ((iblk0 V c 3 t : Vec Ideal S1x256 .f32) (ix2 (0 : Fin 1) cc) : EReal) = β (ix1 cc) :=
    fun cc => (blk0_3 V c t cc).trans (hB cc)
  have hd : ∀ cc : Fin 256, KBody.bDiv (iblk0 V c 0 t) (iblk0 V c 1 t) (iblk0 V c 3 t) i cc = kDiv x β idx n cc := by
    intro cc
    unfold KBody.bDiv kDiv
    rw [norm_blk V c x idx hX hM t i cc n hn, h3 cc]
  unfold KBody.bDen kDen
  simp only [hd, h2]

/-- The quotient array as one function of the input. -/
def quotArr : S50000x1024.Idx → Elt Ideal .f32 := fun j => kX2 x β idx (j 0) (j 1)

theorem flushed0_5 (hX : ∀ n d, (V c main_arg0 (ix2 n d) : EReal) = x (ix2 n d))
    (hM : ∀ d cc, (V c main_v6 (ix2 d cc) : EReal) = wt idx d cc)
    (hMT : ∀ cc d, (V c main_v7 (ix2 cc d) : EReal) = wt idx d cc)
    (hB : ∀ cc, (V c main_v8 (ix2 (0 : Fin 1) cc) : EReal) = β (ix1 cc)) (t : Fin cfg0.N) :
    (dat0 (F := Ideal) V c).flushed 5 t = ((cfg0.win 5).blk t).view.read (Elt Ideal) (quotArr x β idx) := by
  show (cfg0.win 5).cut (grid0.coords t) ((dat0 V c).after 5 t) = _
  rw [after0_5]
  funext j
  obtain ⟨p, q, rfl⟩ : ∃ (p : Fin 1000) (q : Fin 1024), j = ix2 p q := ⟨j 0, j 1, eq_ix2 j⟩
  have ht : t.val < 50 := Nat.lt_of_lt_of_eq t.isLt (show cfg0.N = 50 from N_0)
  obtain ⟨-, -, -, -, -, -, -, -, -, -, e0, e1⟩ := idxs0 t
  show (out0_5 (iblk0 V c 0 t) (iblk0 V c 1 t) (iblk0 V c 2 t) (iblk0 V c 3 t) (ix2 p q) : EReal)
    = quotArr x β idx (((cfg0.win 5).blk t).view.emb (ix2 p q))
  refine (KBody.out0_5_apply (iblk0 V c 0 t) (iblk0 V c 1 t) (iblk0 V c 2 t) (iblk0 V c 3 t) p q).trans ?_
  have hn : (⟨1000 * t.val + p.val, by have := p.isLt; omega⟩ : Fin 50000).val = 1000 * t.val + p.val := rfl
  rw [den_blk V c x β idx hX hM hMT hB t p q ⟨1000 * t.val + p.val, by have := p.isLt; omega⟩ hn,
    (blk0_0 V c t p q ⟨1000 * t.val + p.val, by have := p.isLt; omega⟩ hn).trans (hX _ q)]
  unfold quotArr
  show kX2 x β idx _ q = _
  congr 1
  · apply Fin.ext
    show 1000 * t.val + p.val = win0_5.index t (0 : Fin 2) * 1000 + 1 * p.val
    omega
  · apply Fin.ext
    show q.val = win0_5.index t (1 : Fin 2) * 1024 + 1 * q.val
    omega

/-- An entry of the quotient array is in point t's block iff each coordinate is in the block's range on its axis. -/
theorem mem_blk0_5 (t : Fin cfg0.N) (j : S50000x1024.Idx) :
    j ∈ ((cfg0.win 5).blk t).view.set ↔ ∀ a : Fin 2, win0_5.index t a * S1000x1024.size a ≤ (j a).val
      ∧ (j a).val < win0_5.index t a * S1000x1024.size a + S1000x1024.size a := by
  show j ∈ ((View.whole main_v9_1).slice (win0_5.rect t)).set ↔ _
  rw [View.set_slice_whole, Rect.mem_set_unit]
  exact Iff.rfl

/-- Every entry of the quotient array is in the block of the point its row falls in. -/
theorem tile0_5 (j : S50000x1024.Idx) :
    ∃ t : Fin cfg0.N, (cfg0.win 5).flush t = true ∧ j ∈ ((cfg0.win 5).blk t).view.set := by
  have h0 : (j 0).val < 50000 := idx2_lt0 (n0 := 50000) (n1 := 1024) j
  have h1 : (j 1).val < 1024 := idx2_lt1 (n0 := 50000) (n1 := 1024) j
  have hN : (j 0).val / 1000 < cfg0.N := by rw [show cfg0.N = 50 from N_0]; omega
  refine ⟨⟨(j 0).val / 1000, hN⟩, flush0_5 _, ?_⟩
  obtain ⟨-, -, -, -, -, -, -, -, -, -, e0, e1⟩ := idxs0 ⟨(j 0).val / 1000, hN⟩
  rw [mem_blk0_5]
  intro a
  match a with
  | ⟨0, _⟩ =>
    show win0_5.index ⟨(j 0).val / 1000, hN⟩ (0 : Fin 2) * 1000 ≤ (j 0).val
      ∧ (j 0).val < win0_5.index ⟨(j 0).val / 1000, hN⟩ (0 : Fin 2) * 1000 + 1000
    rw [e0]; show (j 0).val / 1000 * 1000 ≤ (j 0).val ∧ (j 0).val < (j 0).val / 1000 * 1000 + 1000; omega
  | ⟨1, _⟩ =>
    show win0_5.index ⟨(j 0).val / 1000, hN⟩ (1 : Fin 2) * 1024 ≤ (j 1).val
      ∧ (j 1).val < win0_5.index ⟨(j 0).val / 1000, hN⟩ (1 : Fin 2) * 1024 + 1024
    omega

/-- The quotient array after the first launch. -/
theorem arr0_5 (hX : ∀ n d, (V c main_arg0 (ix2 n d) : EReal) = x (ix2 n d))
    (hM : ∀ d cc, (V c main_v6 (ix2 d cc) : EReal) = wt idx d cc)
    (hMT : ∀ cc d, (V c main_v7 (ix2 cc d) : EReal) = wt idx d cc)
    (hB : ∀ cc, (V c main_v8 (ix2 (0 : Fin 1) cc) : EReal) = β (ix1 cc)) (n : Fin 50000) (d : Fin 1024) :
    ((dat0 (F := Ideal) V c).arrAt 5 cfg0.N (ix2 n d) : EReal) = kX2 x β idx n d :=
  congrFun ((dat0 (F := Ideal) V c).arrAt_eq_of_cover 5 (quotArr x β idx)
    (fun t _ => flushed0_5 V c x β idx hX hM hMT hB t) tile0_5) (ix2 n d)

/-! ## The second launch -/

/-- The block index of every window at every point of the second launch. -/
theorem idxs1 : ∀ t : Fin cfg1.N,
    win1_0.index t (0 : Fin 2) = t.val ∧ win1_0.index t (1 : Fin 2) = 0
  ∧ win1_1.index t (0 : Fin 2) = 0 ∧ win1_1.index t (1 : Fin 2) = 0
  ∧ win1_2.index t (0 : Fin 2) = 0 ∧ win1_2.index t (1 : Fin 2) = 0
  ∧ win1_3.index t (0 : Fin 2) = t.val ∧ win1_3.index t (1 : Fin 2) = 0 :=
  (by decide +kernel : ∀ t : Fin grid1.N, _)

/-- Row i of the norm block at point t is row 5000 t + i of the norm array. -/
theorem blk1_0 (t : Fin cfg1.N) (i : Fin 5000) (cc : Fin 256) (n : Fin 50000) (hn : n.val = 5000 * t.val + i.val) :
    (iblk1 V c 0 t : Vec Ideal S5000x256 .f32) (ix2 i cc) = V c main_v9_0 (ix2 n cc) := by
  obtain ⟨e0, e1, -⟩ := idxs1 t
  show V c main_v9_0 (((cfg1.win 0).blk t).view.emb (ix2 i cc)) = V c main_v9_0 (ix2 n cc)
  congr 1
  funext a; apply Fin.ext
  match a with
  | ⟨0, _⟩ => show win1_0.index t (0 : Fin 2) * 5000 + 1 * i.val = n.val; omega
  | ⟨1, _⟩ => show win1_0.index t (1 : Fin 2) * 256 + 1 * cc.val = cc.val; omega

/-- The mean block is the whole mean row. -/
theorem blk1_1 (t : Fin cfg1.N) (cc : Fin 256) :
    (iblk1 V c 1 t : Vec Ideal S1x256 .f32) (ix2 (0 : Fin 1) cc) = V c main_v14 (ix2 (0 : Fin 1) cc) := by
  obtain ⟨-, -, e0, e1, -⟩ := idxs1 t
  show V c main_v14 (((cfg1.win 1).blk t).view.emb (ix2 (0 : Fin 1) cc)) = V c main_v14 (ix2 (0 : Fin 1) cc)
  congr 1
  funext a; apply Fin.ext
  match a with
  | ⟨0, _⟩ => show win1_1.index t (0 : Fin 2) * 1 + 1 * (0 : Fin 1).val = (0 : Fin 1).val; omega
  | ⟨1, _⟩ => show win1_1.index t (1 : Fin 2) * 256 + 1 * cc.val = cc.val; omega

/-- The variance block is the whole variance row. -/
theorem blk1_2 (t : Fin cfg1.N) (cc : Fin 256) :
    (iblk1 V c 2 t : Vec Ideal S1x256 .f32) (ix2 (0 : Fin 1) cc) = V c main_v21 (ix2 (0 : Fin 1) cc) := by
  obtain ⟨-, -, -, -, e0, e1, -⟩ := idxs1 t
  show V c main_v21 (((cfg1.win 2).blk t).view.emb (ix2 (0 : Fin 1) cc)) = V c main_v21 (ix2 (0 : Fin 1) cc)
  congr 1
  funext a; apply Fin.ext
  match a with
  | ⟨0, _⟩ => show win1_2.index t (0 : Fin 2) * 1 + 1 * (0 : Fin 1).val = (0 : Fin 1).val; omega
  | ⟨1, _⟩ => show win1_2.index t (1 : Fin 2) * 256 + 1 * cc.val = cc.val; omega

/-- The first result's array as one function of the norm array, the mean row and the variance row. -/
def resArr (a : Fin 50000 → Fin 256 → EReal) (mu va : Fin 256 → EReal) : S50000x256.Idx → Elt Ideal .f32 :=
  fun j => (a (j 0) (j 1) - mu (j 1)) * Ideal.rsqrt (va (j 1) + e3)

theorem flushed1_3 (a : Fin 50000 → Fin 256 → EReal) (mu va : Fin 256 → EReal)
    (hA : ∀ n cc, (V c main_v9_0 (ix2 n cc) : EReal) = a n cc)
    (hmu : ∀ cc, (V c main_v14 (ix2 (0 : Fin 1) cc) : EReal) = mu cc)
    (hva : ∀ cc, (V c main_v21 (ix2 (0 : Fin 1) cc) : EReal) = va cc) (t : Fin cfg1.N) :
    (dat1 (F := Ideal) V c).flushed 3 t = ((cfg1.win 3).blk t).view.read (Elt Ideal) (resArr a mu va) := by
  show (cfg1.win 3).cut (grid1.coords t) ((dat1 V c).after 3 t) = _
  rw [after1_3]
  funext j
  obtain ⟨p, q, rfl⟩ : ∃ (p : Fin 5000) (q : Fin 256), j = ix2 p q := ⟨j 0, j 1, eq_ix2 j⟩
  have ht : t.val < 10 := Nat.lt_of_lt_of_eq t.isLt (show cfg1.N = 10 from N_1)
  obtain ⟨-, -, -, -, -, -, e0, e1⟩ := idxs1 t
  show (out1_3 (iblk1 V c 0 t) (iblk1 V c 1 t) (iblk1 V c 2 t) (ix2 p q) : EReal)
    = resArr a mu va (((cfg1.win 3).blk t).view.emb (ix2 p q))
  refine (KBody.out1_3_apply (iblk1 V c 0 t) (iblk1 V c 1 t) (iblk1 V c 2 t) p q).trans ?_
  have hn : (⟨5000 * t.val + p.val, by have := p.isLt; omega⟩ : Fin 50000).val = 5000 * t.val + p.val := rfl
  rw [(blk1_0 V c t p q ⟨5000 * t.val + p.val, by have := p.isLt; omega⟩ hn).trans (hA _ q),
    (blk1_1 V c t q).trans (hmu q), (blk1_2 V c t q).trans (hva q)]
  unfold resArr
  have hr : (⟨5000 * t.val + p.val, by have := p.isLt; omega⟩ : Fin 50000) = ((cfg1.win 3).blk t).view.emb (ix2 p q) 0 := by
    apply Fin.ext
    show 5000 * t.val + p.val = win1_3.index t (0 : Fin 2) * 5000 + 1 * p.val
    omega
  have hc : q = ((cfg1.win 3).blk t).view.emb (ix2 p q) 1 := by
    apply Fin.ext
    show q.val = win1_3.index t (1 : Fin 2) * 256 + 1 * q.val
    omega
  show (a _ q - mu q) * Ideal.rsqrt (va q + e3) = (a _ _ - mu _) * Ideal.rsqrt (va _ + e3)
  rw [← hr, ← hc]

/-- An entry of the result array is in point t's block iff each coordinate is in the block's range on its axis. -/
theorem mem_blk1_3 (t : Fin cfg1.N) (j : S50000x256.Idx) :
    j ∈ ((cfg1.win 3).blk t).view.set ↔ ∀ a : Fin 2, win1_3.index t a * S5000x256.size a ≤ (j a).val
      ∧ (j a).val < win1_3.index t a * S5000x256.size a + S5000x256.size a := by
  show j ∈ ((View.whole main_v22).slice (win1_3.rect t)).set ↔ _
  rw [View.set_slice_whole, Rect.mem_set_unit]
  exact Iff.rfl

/-- Every entry of the result array is in the block of the point its row falls in. -/
theorem tile1_3 (j : S50000x256.Idx) :
    ∃ t : Fin cfg1.N, (cfg1.win 3).flush t = true ∧ j ∈ ((cfg1.win 3).blk t).view.set := by
  have h0 : (j 0).val < 50000 := idx2_lt0 (n0 := 50000) (n1 := 256) j
  have h1 : (j 1).val < 256 := idx2_lt1 (n0 := 50000) (n1 := 256) j
  have hN : (j 0).val / 5000 < cfg1.N := by rw [show cfg1.N = 10 from N_1]; omega
  refine ⟨⟨(j 0).val / 5000, hN⟩, flush1_3 _, ?_⟩
  obtain ⟨-, -, -, -, -, -, e0, e1⟩ := idxs1 ⟨(j 0).val / 5000, hN⟩
  rw [mem_blk1_3]
  intro a
  match a with
  | ⟨0, _⟩ =>
    show win1_3.index ⟨(j 0).val / 5000, hN⟩ (0 : Fin 2) * 5000 ≤ (j 0).val
      ∧ (j 0).val < win1_3.index ⟨(j 0).val / 5000, hN⟩ (0 : Fin 2) * 5000 + 5000
    rw [e0]; show (j 0).val / 5000 * 5000 ≤ (j 0).val ∧ (j 0).val < (j 0).val / 5000 * 5000 + 5000; omega
  | ⟨1, _⟩ =>
    show win1_3.index ⟨(j 0).val / 5000, hN⟩ (1 : Fin 2) * 256 ≤ (j 1).val
      ∧ (j 1).val < win1_3.index ⟨(j 0).val / 5000, hN⟩ (1 : Fin 2) * 256 + 256
    omega

/-- The first result's array after the second launch. -/
theorem arr1_3 (a : Fin 50000 → Fin 256 → EReal) (mu va : Fin 256 → EReal)
    (hA : ∀ n cc, (V c main_v9_0 (ix2 n cc) : EReal) = a n cc)
    (hmu : ∀ cc, (V c main_v14 (ix2 (0 : Fin 1) cc) : EReal) = mu cc)
    (hva : ∀ cc, (V c main_v21 (ix2 (0 : Fin 1) cc) : EReal) = va cc) (n : Fin 50000) (cc : Fin 256) :
    ((dat1 (F := Ideal) V c).arrAt 3 cfg1.N (ix2 n cc) : EReal) = (a n cc - mu cc) * Ideal.rsqrt (va cc + e3) :=
  congrFun ((dat1 (F := Ideal) V c).arrAt_eq_of_cover 3 (resArr a mu va)
    (fun t _ => flushed1_3 V c a mu va hA hmu hva t) tile1_3) (ix2 n cc)

end Cert.KArrays

end
-- ==== Proof.KSums.lean ====
/-
  From blocks to arrays, the two partial-sum arrays of the first launch: point t writes rows 8 t .. 8 t + 7, the
  column sums over its 1000 input rows in the first of them and zero in the other seven; the 50 blocks tile the
  400 rows.
-/
import proofs.«421808_j79748952752439_3_alg».proof.Proof.Gen.KernelIdeal.Frame
import proofs.«421808_j79748952752439_3_alg».proof.Proof.KBody
import Idealize.ShloMosaic.Lib.Pipeline.Value

noncomputable section

namespace Cert.KSums

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b)) (c : Dev nD)
variable (x : FVec Ideal S50000x1024 .f32) (idx : IVec S1024 32)

/-! ## Where the blocks sit -/

/-- The block numbers at point t: the input's and the two partial-sum arrays' blocks move down with t, the weights'
    block is the whole weight array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- A grid point as a block number. -/
def pt (t : Fin cfg0.N) : Fin 50 := Fin.cast N_0 t

theorem pt_val (t : Fin cfg0.N) : (pt t).val = t.val := rfl

/-- The point whose block holds row r of a partial-sum array. -/
def ptOf (r : Fin 400) : Fin cfg0.N := Fin.cast N_0.symm (blkOf r)

theorem ptOf_val (r : Fin 400) : (ptOf r).val = r.val / 8 := rfl

/-- Row i of the input block at point t is row 1000 t + i of the input. -/
theorem xblk_apply (t : Fin cfg0.N) (i : Fin 1000) (d : Fin 1024) :
    (iblk0 (F := Ideal) V c 0 t : Vec Ideal S1000x1024 .f32) (ix2 i d) = V c main_arg0 (ix2 (rowOf (pt t) i) d) := by
  obtain ⟨e0, e1, -⟩ := idx_facts t
  show V c main_arg0 (((cfg0.win 0).blk t).view.emb (ix2 i d)) = V c main_arg0 _
  congr 1
  funext a
  apply Fin.ext
  match a with
  | ⟨0, _⟩ => show win0_0.index t (0 : Fin 2) * 1000 + 1 * i.val = 1000 * t.val + i.val; omega
  | ⟨1, _⟩ => show win0_0.index t (1 : Fin 2) * 1024 + 1 * d.val = d.val; omega

/-- The weights' block at every point is the whole weight array. -/
theorem mblk_apply (t : Fin cfg0.N) (d : Fin 1024) (q : Fin 256) :
    (iblk0 (F := Ideal) V c 1 t : Vec Ideal S1024x256 .bf16) (ix2 d q) = V c main_v6 (ix2 d q) := by
  obtain ⟨-, -, e0, e1, -⟩ := idx_facts t
  show V c main_v6 (((cfg0.win 1).blk t).view.emb (ix2 d q)) = V c main_v6 _
  congr 1
  funext a
  apply Fin.ext
  match a with
  | ⟨0, _⟩ => show win0_1.index t (0 : Fin 2) * 1024 + 1 * d.val = d.val; omega
  | ⟨1, _⟩ => show win0_1.index t (1 : Fin 2) * 256 + 1 * q.val = q.val; omega

/-- Entry (p, q) of the first partial-sum block at point t sits at row 8 t + p, column q of its array. -/
theorem emb6_val (t : Fin cfg0.N) (p : Fin 8) (q : Fin 256) :
    ((((cfg0.win 6).blk t).view.emb (ix2 p q) : S400x256.Idx) 0).val = 8 * t.val + p.val
    ∧ ((((cfg0.win 6).blk t).view.emb (ix2 p q) : S400x256.Idx) 1).val = q.val := by
  obtain ⟨-, -, -, -, e0, e1, -⟩ := idx_facts t
  constructor
  · show win0_6.index t (0 : Fin 2) * 8 + 1 * p.val = _; omega
  · show win0_6.index t (1 : Fin 2) * 256 + 1 * q.val = _; omega

/-- Entry (p, q) of the second partial-sum block at point t sits at row 8 t + p, column q of its array. -/
theorem emb7_val (t : Fin cfg0.N) (p : Fin 8) (q : Fin 256) :
    ((((cfg0.win 7).blk t).view.emb (ix2 p q) : S400x256.Idx) 0).val = 8 * t.val + p.val
    ∧ ((((cfg0.win 7).blk t).view.emb (ix2 p q) : S400x256.Idx) 1).val = q.val := by
  obtain ⟨-, -, -, -, -, -, e0, e1⟩ := idx_facts t
  constructor
  · show win0_7.index t (0 : Fin 2) * 8 + 1 * p.val = _; omega
  · show win0_7.index t (1 : Fin 2) * 256 + 1 * q.val = _; omega

/-- An entry of the first partial-sum array is in point t's block iff each coordinate is in the block's range. -/
theorem mem_blk6 (t : Fin cfg0.N) (i : S400x256.Idx) :
    i ∈ ((cfg0.win 6).blk t).view.set ↔ ∀ a : Fin 2, win0_6.index t a * S8x256.size a ≤ (i a).val
      ∧ (i a).val < win0_6.index t a * S8x256.size a + S8x256.size a := by
  show i ∈ ((View.whole main_v9_2).slice (win0_6.rect t)).set ↔ _
  rw [View.set_slice_whole, Rect.mem_set_unit]
  exact Iff.rfl

/-- An entry of the second partial-sum array is in point t's block iff each coordinate is in the block's range. -/
theorem mem_blk7 (t : Fin cfg0.N) (i : S400x256.Idx) :
    i ∈ ((cfg0.win 7).blk t).view.set ↔ ∀ a : Fin 2, win0_7.index t a * S8x256.size a ≤ (i a).val
      ∧ (i a).val < win0_7.index t a * S8x256.size a + S8x256.size a := by
  show i ∈ ((View.whole main_v9_3).slice (win0_7.rect t)).set ↔ _
  rw [View.set_slice_whole, Rect.mem_set_unit]
  exact Iff.rfl

/-- Row r lies in the block of point r / 8: the blocks tile the first partial-sum array. -/
theorem cover6 (r : Fin 400) (q : Fin 256) : (ix2 r q : S400x256.Idx) ∈ ((cfg0.win 6).blk (ptOf r)).view.set := by
  obtain ⟨-, -, -, -, e0, e1, -⟩ := idx_facts (ptOf r)
  rw [mem_blk6]
  intro a
  have hr := r.isLt
  have hq := q.isLt
  have ht := ptOf_val r
  match a with
  | ⟨0, _⟩ =>
    show win0_6.index (ptOf r) (0 : Fin 2) * 8 ≤ r.val ∧ r.val < win0_6.index (ptOf r) (0 : Fin 2) * 8 + 8; omega
  | ⟨1, _⟩ =>
    show win0_6.index (ptOf r) (1 : Fin 2) * 256 ≤ q.val ∧ q.val < win0_6.index (ptOf r) (1 : Fin 2) * 256 + 256; omega

/-- Row r lies in the block of point r / 8: the blocks tile the second partial-sum array. -/
theorem cover7 (r : Fin 400) (q : Fin 256) : (ix2 r q : S400x256.Idx) ∈ ((cfg0.win 7).blk (ptOf r)).view.set := by
  obtain ⟨-, -, -, -, -, -, e0, e1⟩ := idx_facts (ptOf r)
  rw [mem_blk7]
  intro a
  have hr := r.isLt
  have hq := q.isLt
  have ht := ptOf_val r
  match a with
  | ⟨0, _⟩ =>
    show win0_7.index (ptOf r) (0 : Fin 2) * 8 ≤ r.val ∧ r.val < win0_7.index (ptOf r) (0 : Fin 2) * 8 + 8; omega
  | ⟨1, _⟩ =>
    show win0_7.index (ptOf r) (1 : Fin 2) * 256 ≤ q.val ∧ q.val < win0_7.index (ptOf r) (1 : Fin 2) * 256 + 256; omega

/-! ## The two arrays, whole -/

/-- The first partial-sum array, whole. -/
def G1 : S400x256.Idx → EReal := fun i => kS1 x idx (i 0) (i 1)
/-- The second partial-sum array, whole. -/
def G2 : S400x256.Idx → EReal := fun i => kS2 x idx (i 0) (i 1)

/-- Row 8 t + p of the first partial-sum array: block t's column sums of the norm if p = 0, else zero. -/
theorem kS1_row (t : Fin 50) (p : Fin 8) (q : Fin 256) (r : Fin 400) (hr : r.val = 8 * t.val + p.val) :
    kS1 x idx r q = if p.val = 0 then ∑ i : Fin 1000, kX0 x idx (rowOf t i) q else 0 := by
  have hb : blkOf r = t := Fin.ext (by show r.val / 8 = t.val; have := p.isLt; omega)
  have hm : r.val % 8 = p.val := by have := p.isLt; omega
  unfold kS1
  rw [hb, hm]

/-- Row 8 t + p of the second partial-sum array: block t's column sums of the squared norm if p = 0, else zero. -/
theorem kS2_row (t : Fin 50) (p : Fin 8) (q : Fin 256) (r : Fin 400) (hr : r.val = 8 * t.val + p.val) :
    kS2 x idx r q = if p.val = 0 then ∑ i : Fin 1000, kX0 x idx (rowOf t i) q * kX0 x idx (rowOf t i) q else 0 := by
  have hb : blkOf r = t := Fin.ext (by show r.val / 8 = t.val; have := p.isLt; omega)
  have hm : r.val % 8 = p.val := by have := p.isLt; omega
  unfold kS2
  rw [hb, hm]

/-- The first partial-sum array at an entry of row 8 t + p, column q. -/
theorem G1_at (t : Fin 50) (p : Fin 8) (q : Fin 256) (i : S400x256.Idx) (h0 : (i 0).val = 8 * t.val + p.val)
    (h1 : (i 1).val = q.val) :
    G1 x idx i = if p.val = 0 then ∑ i : Fin 1000, kX0 x idx (rowOf t i) q else 0 := by
  obtain ⟨a, b, rfl⟩ : ∃ (a : Fin 400) (b : Fin 256), i = ix2 a b := ⟨i 0, i 1, eq_ix2 i⟩
  have hb : b = q := Fin.ext h1
  subst hb
  exact kS1_row x idx t p b a h0

/-- The second partial-sum array at an entry of row 8 t + p, column q. -/
theorem G2_at (t : Fin 50) (p : Fin 8) (q : Fin 256) (i : S400x256.Idx) (h0 : (i 0).val = 8 * t.val + p.val)
    (h1 : (i 1).val = q.val) :
    G2 x idx i = if p.val = 0 then ∑ i : Fin 1000, kX0 x idx (rowOf t i) q * kX0 x idx (rowOf t i) q else 0 := by
  obtain ⟨a, b, rfl⟩ : ∃ (a : Fin 400) (b : Fin 256), i = ix2 a b := ⟨i 0, i 1, eq_ix2 i⟩
  have hb : b = q := Fin.ext h1
  subst hb
  exact kS2_row x idx t p b a h0

/-! ## What each point writes back -/

section
variable (hX : ∀ n d, (V c main_arg0 (ix2 n d) : EReal) = x (ix2 n d))
  (hM : ∀ d cc, (V c main_v6 (ix2 d cc) : EReal) = wt idx d cc)
include hX hM

/-- The norm of row i of the block at point t is the norm of row 1000 t + i of the input. -/
theorem bX0_blk (t : Fin cfg0.N) (i : Fin 1000) (q : Fin 256) :
    KBody.bX0 (iblk0 (F := Ideal) V c 0 t) (iblk0 (F := Ideal) V c 1 t) i q = kX0 x idx (rowOf (pt t) i) q := by
  unfold KBody.bX0 kX0 KBody.bSsq kSsq
  simp only [xblk_apply, mblk_apply, hX, hM]

/-- What point t leaves in the first partial-sum block, entry by entry, is the whole array's value at that entry's
    place. -/
theorem blk6_apply (t : Fin cfg0.N) (p : Fin 8) (q : Fin 256) :
    (out0_6 (F := Ideal) (iblk0 (F := Ideal) V c 0 t) (iblk0 (F := Ideal) V c 1 t) (iblk0 (F := Ideal) V c 2 t)
        (iblk0 (F := Ideal) V c 3 t) (ix2 p q) : EReal)
      = G1 x idx (((cfg0.win 6).blk t).view.emb (ix2 p q)) := by
  obtain ⟨h0, h1⟩ := emb6_val t p q
  refine (KBody.out0_6_apply (iblk0 (F := Ideal) V c 0 t) (iblk0 (F := Ideal) V c 1 t) (iblk0 (F := Ideal) V c 2 t)
    (iblk0 (F := Ideal) V c 3 t) p q).trans ?_
  refine Eq.trans ?_ (G1_at x idx (pt t) p q _ (by rw [pt_val]; exact h0) h1).symm
  simp only [bX0_blk V c x idx hX hM]

/-- What point t leaves in the second partial-sum block, entry by entry, is the whole array's value at that entry's
    place. -/
theorem blk7_apply (t : Fin cfg0.N) (p : Fin 8) (q : Fin 256) :
    (out0_7 (F := Ideal) (iblk0 (F := Ideal) V c 0 t) (iblk0 (F := Ideal) V c 1 t) (iblk0 (F := Ideal) V c 2 t)
        (iblk0 (F := Ideal) V c 3 t) (ix2 p q) : EReal)
      = G2 x idx (((cfg0.win 7).blk t).view.emb (ix2 p q)) := by
  obtain ⟨h0, h1⟩ := emb7_val t p q
  refine (KBody.out0_7_apply (iblk0 (F := Ideal) V c 0 t) (iblk0 (F := Ideal) V c 1 t) (iblk0 (F := Ideal) V c 2 t)
    (iblk0 (F := Ideal) V c 3 t) p q).trans ?_
  refine Eq.trans ?_ (G2_at x idx (pt t) p q _ (by rw [pt_val]; exact h0) h1).symm
  simp only [bX0_blk V c x idx hX hM]

/-- Point t writes back block t of the first whole array. -/
theorem flushed6_eq (t : Fin cfg0.N) :
    (dat0 (F := Ideal) V c).flushed 6 t = ((cfg0.win 6).blk t).view.read (Elt Ideal) (G1 x idx) := by
  show (cfg0.win 6).cut (grid0.coords t) ((dat0 (F := Ideal) V c).after 6 t) = _
  rw [after0_6]
  funext j
  obtain ⟨p, q, rfl⟩ : ∃ (p : Fin 8) (q : Fin 256), j = ix2 p q := ⟨j 0, j 1, eq_ix2 j⟩
  exact blk6_apply V c x idx hX hM t p q

/-- Point t writes back block t of the second whole array. -/
theorem flushed7_eq (t : Fin cfg0.N) :
    (dat0 (F := Ideal) V c).flushed 7 t = ((cfg0.win 7).blk t).view.read (Elt Ideal) (G2 x idx) := by
  show (cfg0.win 7).cut (grid0.coords t) ((dat0 (F := Ideal) V c).after 7 t) = _
  rw [after0_7]
  funext j
  obtain ⟨p, q, rfl⟩ : ∃ (p : Fin 8) (q : Fin 256), j = ix2 p q := ⟨j 0, j 1, eq_ix2 j⟩
  exact blk7_apply V c x idx hX hM t p q

end

/-! ## The arrays after all points -/

/-- The array of per-block column sums of the norm. -/
theorem arr0_6 (hX : ∀ n d, (V c main_arg0 (ix2 n d) : EReal) = x (ix2 n d))
    (hM : ∀ d cc, (V c main_v6 (ix2 d cc) : EReal) = wt idx d cc) (r : Fin 400) (cc : Fin 256) :
    ((dat0 (F := Ideal) V c).arrAt 6 cfg0.N (ix2 r cc) : EReal) = kS1 x idx r cc := by
  exact (dat0 (F := Ideal) V c).arrAt_apply_of_mem 6 (G1 x idx) (fun t _ => flushed6_eq V c x idx hX hM t) cfg0.N
    (ptOf r) (ix2 r cc) (ptOf r).isLt (flush0_6 (ptOf r)) (cover6 r cc)

/-- The array of per-block column sums of the squared norm. -/
theorem arr0_7 (hX : ∀ n d, (V c main_arg0 (ix2 n d) : EReal) = x (ix2 n d))
    (hM : ∀ d cc, (V c main_v6 (ix2 d cc) : EReal) = wt idx d cc) (r : Fin 400) (cc : Fin 256) :
    ((dat0 (F := Ideal) V c).arrAt 7 cfg0.N (ix2 r cc) : EReal) = kS2 x idx r cc := by
  exact (dat0 (F := Ideal) V c).arrAt_apply_of_mem 7 (G2 x idx) (fun t _ => flushed7_eq V c x idx hX hM t) cfg0.N
    (ptOf r) (ix2 r cc) (ptOf r).isLt (flush0_7 (ptOf r)) (cover7 r cc)

end Cert.KSums

end
-- ==== Proof.KHost.lean ====
/-
  The host operations around the two launches, read at an entry.

  Before the first launch: the 1024 x 256 weight array has a one where the column's channel number equals the
  channel (an equality of words against the 0..255 iota, converted to a float) and its transpose the same with the
  coordinates swapped; the offsets are laid out as one row; the input is untouched.
  Between the launches: the mean row is the column sum of the 400-row partial sums divided by the row count, the
  variance row the same of the squares minus the squared mean, floored at zero; the norm and quotient arrays are
  untouched.
-/
import proofs.«421808_j79748952752439_3_alg».proof.Proof.Gen.KernelIdeal.Frame
import proofs.«421808_j79748952752439_3_alg».proof.Proof.Spec
import proofs.«421808_j79748952752439_3_alg».proof.Proof.LibLayout2
import Idealize.ShloMosaic.Lib.StableHlo.Predicate
import Idealize.ShloMosaic.Lib.StableHlo.Run

noncomputable section

namespace Cert.KHost

open Idealize.ShloMosaic Idealize.ShloMosaic.TcCoe Idealize.ShloMosaic.ValueIdx Idealize.SL.Sem
open Cert.KernelIdeal Cert.KernelIdeal.Gen Cert.Spec

/-- A vector recast as one row reads, at (u, q), the vector's entry q. -/
theorem shapeCast_b_1b_apply {α : Type} {N : Nat} (x : (⟨1, ![N]⟩ : Shape).Idx → α)
    (h : (⟨1, ![N]⟩ : Shape).ShapeCasts ⟨2, ![1, N]⟩) (u : Fin 1) (q : Fin N) :
    shapeCast ⟨2, ![1, N]⟩ x h (ix2 u q) = x (ix1 q) :=
  shapeCast_apply x h _ _ (by
    have hu : u.val = 0 := by omega
    rw [Shape.rowMajor_val_two, Shape.rowMajor_val_one]
    show q.val = u.val * N + q.val
    rw [hu]; omega)

/-- A vector broadcast to one column reads, at (r, u), the vector's entry r. -/
theorem bcast_vec_col_apply {α : Type} {M : Nat} (b : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h b (ix2 r u) = b (ix1 r) :=
  broadcastInDim_apply ![0] h b (ix2 r u) (ix1 r) fun ax => by
    match ax with
    | ⟨0, _⟩ =>
      show r.val = if M = 1 then 0 else r.val
      split
      · have := r.isLt; omega
      · rfl

/-- The weight array as the host operations build it from the channel numbers: the numbers laid down the rows and
    the 0..255 positions along the columns, compared for equality as words, the bit converted to a float. -/
def wtArr (idx : IVec SI 32) : FVec Ideal S1024x256 .bf16 :=
  uitofp .bf16 (cmpi .eq
    (broadcastInDim S1024x256 ![0, 1] (show S1024x1.BroadcastsInDim S1024x256 ![0, 1] by decide)
      (broadcastInDim S1024x1 ![0] (show S1024.BroadcastsInDim S1024x1 ![0] by decide) idx))
    (broadcastInDim S1024x256 ![0, 1] (show S1x256.BroadcastsInDim S1024x256 ![0, 1] by decide)
      (broadcastInDim S1x256 ![1] (show S256.BroadcastsInDim S1x256 ![1] by decide) (iotaInDim S256 32 0))))

/-- At (d, c) the two broadcasts read the number of column d and the word of c, so the converted bit is the
    membership weight. -/
theorem wtArr_apply (idx : IVec SI 32) (d : Fin 1024) (cc : Fin 256) :
    (wtArr idx (ix2 d cc) : EReal) = wt idx d cc := by
  have hA : ∀ (h1 : S1024.BroadcastsInDim S1024x1 ![0]) (h2 : S1024x1.BroadcastsInDim S1024x256 ![0, 1]),
      broadcastInDim S1024x256 ![0, 1] h2 (broadcastInDim S1024x1 ![0] h1 idx) (ix2 d cc) = idx (ix1 d) :=
    fun h1 h2 => (Cert.LibLayout2.bcast_col_apply _ h2 d cc).trans (bcast_vec_col_apply idx h1 d (0 : Fin 1))
  have hB : ∀ (h3 : S256.BroadcastsInDim S1x256 ![1]) (h4 : S1x256.BroadcastsInDim S1024x256 ![0, 1]),
      broadcastInDim S1024x256 ![0, 1] h4 (broadcastInDim S1x256 ![1] h3 (iotaInDim S256 32 0)) (ix2 d cc)
        = BitVec.ofNat 32 cc.val :=
    fun h3 h4 => (Cert.LibLayout2.bcast_row_apply _ h4 d cc).trans
      (Cert.LibLayout2.bcast_vec_row_apply _ h3 (0 : Fin 1) cc)
  show (((IntOp.cmpi .eq
      (broadcastInDim S1024x256 ![0, 1] _ (broadcastInDim S1024x1 ![0] _ idx) (ix2 d cc))
      (broadcastInDim S1024x256 ![0, 1] _ (broadcastInDim S1x256 ![1] _ (iotaInDim S256 32 0)) (ix2 d cc))).toNat : ℝ) : EReal)
    = wt idx d cc
  rw [hA, hB]
  unfold wt
  by_cases h : hit idx d cc
  · rw [if_pos h, StableHlo.Predicate.cmpi_eq_iff.mpr (show idx (ix1 d) = BitVec.ofNat 32 cc.val from h)]; simp
  · rw [if_neg h, eq_zero_of_ne_one (fun e => h (StableHlo.Predicate.cmpi_eq_iff.mp e))]; simp

/-- The transposed weight array reads, at (c, d), the weight array at (d, c). -/
theorem wtArr_transpose_apply (idx : IVec SI 32) (h : S1024x256.Transposes [1, 0] S256x1024) (cc : Fin 256) (d : Fin 1024) :
    (transpose S256x1024 [1, 0] (wtArr idx) h (ix2 cc d) : EReal) = wt idx d cc :=
  (transpose_apply [1, 0] (wtArr idx) h (ix2 cc d) (ix2 d cc) fun b => by
    match b with
    | ⟨0, _⟩ => rfl
    | ⟨1, _⟩ => rfl).trans (wtArr_apply idx d cc)

/-- The sum down the 400 rows of a column: the host's one-axis sum from a zero start is the sum over the rows. -/
theorem colsum_apply (x : FVec Ideal S400x256 .f32) (h' : S400x256.ReducesTo [0] S256) (cc : Fin 256) :
    Ideal.hostReduceAdd h' x 0 (ix1 cc) = ∑ r : Fin 400, (x (ix2 r cc) : EReal) := by
  have h : S400x256.Reduces [0] S256 := by decide
  rw [Ideal.hostReduceAdd_single h' h x 0 (ix1 cc), zero_add]
  show ∑ k : Fin 400, x (h.lift (ix1 cc) k) = _
  refine Finset.sum_congr rfl fun k _ => congrArg x ?_
  funext a
  match a with
  | ⟨0, _⟩ => exact Fin.ext rfl
  | ⟨1, _⟩ => exact Fin.ext rfl

/-- The column sums of a 400-row array divided by the row-count constant, as a vector. -/
def meanVecTerm (x : FVec Ideal S400x256 .f32) : FVec Ideal S256 .f32 :=
  Host.divf (F := Ideal)
    (Host.reduceAdd (F := Ideal) x (constant (F := Ideal) S_ .f32 0x00000000#32)
      (show S400x256.ReducesTo [0] S256 by decide) (show 0 < S_.numel by decide))
    (broadcastInDim S256 ![] (show S_.BroadcastsInDim S256 ![] by decide) (constant (F := Ideal) S_ .f32 0x47435000#32))

theorem meanVecTerm_apply (x : FVec Ideal S400x256 .f32) (cc : Fin 256) :
    (meanVecTerm x (ix1 cc) : EReal) = Ideal.div (∑ r : Fin 400, (x (ix2 r cc) : EReal)) cN := by
  show Ideal.div (Ideal.hostReduceAdd _ x (Ideal.ofBits .f32 0x00000000#32) (ix1 cc)) (Ideal.ofBits .f32 0x47435000#32) = _
  rw [Ideal.ofBits_zero_f32, colsum_apply]
  rfl

/-- The same laid out as one row. -/
def meanRowTerm (x : FVec Ideal S400x256 .f32) : FVec Ideal S1x256 .f32 :=
  shapeCast S1x256 (meanVecTerm x) (show S256.ShapeCasts S1x256 by decide)

theorem meanRowTerm_apply (x : FVec Ideal S400x256 .f32) (cc : Fin 256) :
    (meanRowTerm x (ix2 (0 : Fin 1) cc) : EReal) = Ideal.div (∑ r : Fin 400, (x (ix2 r cc) : EReal)) cN := by
  unfold meanRowTerm
  rw [shapeCast_b_1b_apply]
  exact meanVecTerm_apply x cc

/-- The variance row: the mean of the squares' sums minus the squared mean row, floored at a zero row. -/
def varRowTerm (x1 x2 : FVec Ideal S400x256 .f32) : FVec Ideal S1x256 .f32 :=
  maximumf
    (subf (broadcastInDim S1x256 ![1] (show S256.BroadcastsInDim S1x256 ![1] by decide) (meanVecTerm x2))
      (mulf (meanRowTerm x1) (meanRowTerm x1)))
    (broadcastInDim S1x256 ![] (show S_.BroadcastsInDim S1x256 ![] by decide) (constant (F := Ideal) S_ .f32 0x00000000#32))

theorem varRowTerm_apply (x1 x2 : FVec Ideal S400x256 .f32) (cc : Fin 256) :
    (varRowTerm x1 x2 (ix2 (0 : Fin 1) cc) : EReal)
      = max (Ideal.div (∑ r : Fin 400, (x2 (ix2 r cc) : EReal)) cN
          - Ideal.div (∑ r : Fin 400, (x1 (ix2 r cc) : EReal)) cN * Ideal.div (∑ r : Fin 400, (x1 (ix2 r cc) : EReal)) cN) 0 := by
  show max (broadcastInDim S1x256 ![1] _ (meanVecTerm x2) (ix2 (0 : Fin 1) cc)
      - meanRowTerm x1 (ix2 (0 : Fin 1) cc) * meanRowTerm x1 (ix2 (0 : Fin 1) cc)) (Ideal.ofBits .f32 0x00000000#32) = _
  rw [Cert.LibLayout2.bcast_vec_row_apply, meanVecTerm_apply, meanRowTerm_apply, Ideal.ofBits_zero_f32]

variable (m : (ℓ : Loc nD τ sig) → Buf (Elt Ideal) ℓ) (ρ : Dev nD → PrngReg) (c : Dev nD)

theorem host0_x (n : Fin 50000) (d : Fin 1024) :
    (V1 m ρ c main_arg0 (ix2 n d) : EReal) = m ((c : Thread nD τ).loc main_arg0) (ix2 n d) := by
  have e : W1 m ρ c (Proc.devRef .tc main_arg0) = W0 m ρ c (Proc.devRef .tc main_arg0) :=
    StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
  exact congrFun e (ix2 n d)

theorem host0_M (d : Fin 1024) (cc : Fin 256) :
    (V1 m ρ c main_v6 (ix2 d cc) : EReal) = wt (m ((c : Thread nD τ).loc main_arg2)) d cc := by
  have e : (V1 m ρ c main_v6 : S1024x256.Idx → EReal) = wtArr (m ((c : Thread nD τ).loc main_arg2)) := by
    dsimp only [V1, W1, hostOps0]; after_results <;> rfl
  rw [e]
  exact wtArr_apply _ d cc

theorem host0_MT (cc : Fin 256) (d : Fin 1024) :
    (V1 m ρ c main_v7 (ix2 cc d) : EReal) = wt (m ((c : Thread nD τ).loc main_arg2)) d cc := by
  have e : (V1 m ρ c main_v7 : S256x1024.Idx → EReal)
      = transpose S256x1024 [1, 0] (wtArr (m ((c : Thread nD τ).loc main_arg2)))
          (show S1024x256.Transposes [1, 0] S256x1024 by decide) := by
    dsimp only [V1, W1, hostOps0]; after_results <;> rfl
  rw [e]
  exact wtArr_transpose_apply _ _ cc d

theorem host0_B (cc : Fin 256) :
    (V1 m ρ c main_v8 (ix2 (0 : Fin 1) cc) : EReal) = m ((c : Thread nD τ).loc main_arg1) (ix1 cc) := by
  have e : (V1 m ρ c main_v8 : S1x256.Idx → EReal)
      = shapeCast S1x256 (m ((c : Thread nD τ).loc main_arg1) : S256.Idx → EReal)
          (show S256.ShapeCasts S1x256 by decide) := by
    dsimp only [V1, W1, hostOps0]; after_results; rfl
  rw [e]
  exact shapeCast_b_1b_apply _ _ (0 : Fin 1) cc

theorem host1_A (n : Fin 50000) (cc : Fin 256) :
    (V3 m ρ c main_v9_0 (ix2 n cc) : EReal) = W2 m ρ c (Proc.devRef .tc main_v9_0) (ix2 n cc) := by
  have e : W3 m ρ c (Proc.devRef .tc main_v9_0) = W2 m ρ c (Proc.devRef .tc main_v9_0) :=
    StableHlo.after_of_forall_not_mem (b := Proc.devRef .tc main_v9_0) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
  exact congrFun e (ix2 n cc)

theorem host1_q (n : Fin 50000) (d : Fin 1024) :
    (W3 m ρ c (Proc.devRef .tc main_v9_1) (ix2 n d) : EReal) = W2 m ρ c (Proc.devRef .tc main_v9_1) (ix2 n d) := by
  have e : W3 m ρ c (Proc.devRef .tc main_v9_1) = W2 m ρ c (Proc.devRef .tc main_v9_1) :=
    StableHlo.after_of_forall_not_mem (b := Proc.devRef .tc main_v9_1) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
  exact congrFun e (ix2 n d)

/-- The mean row as the second launch finds it. -/
def muRow (cc : Fin 256) : EReal :=
  Ideal.div (∑ r : Fin 400, (W2 m ρ c (Proc.devRef .tc main_v9_2) (ix2 r cc) : EReal)) cN

theorem host1_mu (cc : Fin 256) : (V3 m ρ c main_v14 (ix2 (0 : Fin 1) cc) : EReal) = muRow m ρ c cc := by
  have e : (V3 m ρ c main_v14 : S1x256.Idx → EReal) = meanRowTerm (W2 m ρ c (Proc.devRef .tc main_v9_2)) := by
    dsimp only [V3, W3, hostOps1]; after_results <;> rfl
  rw [e]
  exact meanRowTerm_apply _ cc

theorem host1_va (cc : Fin 256) :
    (V3 m ρ c main_v21 (ix2 (0 : Fin 1) cc) : EReal)
      = max (Ideal.div (∑ r : Fin 400, (W2 m ρ c (Proc.devRef .tc main_v9_3) (ix2 r cc) : EReal)) cN
          - muRow m ρ c cc * muRow m ρ c cc) 0 := by
  have e : (V3 m ρ c main_v21 : S1x256.Idx → EReal)
      = varRowTerm (W2 m ρ c (Proc.devRef .tc main_v9_2)) (W2 m ρ c (Proc.devRef .tc main_v9_3)) := by
    dsimp only [V3, W3, hostOps1]; after_results <;> rfl
  rw [e]
  exact varRowTerm_apply _ _ cc

end Cert.KHost

end
-- ==== Proof.KValue.lean ====
/-
  The idealized kernel program's two result arrays, entry by entry, as functions of the three arguments.

  The first launch leaves the channel norm, the quotient and the two partial-sum arrays; the host operations between
  the launches turn the partial sums into the mean and variance rows; the second launch centres and scales the norm.
  The quotient array is not touched after the first launch.
-/
import proofs.«421808_j79748952752439_3_alg».proof.Proof.KArrays
import proofs.«421808_j79748952752439_3_alg».proof.Proof.KSums
import proofs.«421808_j79748952752439_3_alg».proof.Proof.KHost

noncomputable section

namespace Cert.KValue

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-- The three arguments as launched. -/
abbrev xA : FVec Ideal S50000x1024 .f32 := m ((c : Thread nD τ).loc main_arg0)
abbrev bA : FVec Ideal S256 .f32 := m ((c : Thread nD τ).loc main_arg1)
abbrev iA : IVec S1024 32 := m ((c : Thread nD τ).loc main_arg2)

/-- After the first launch: the channel norm. -/
theorem w2_norm (n : Fin 50000) (cc : Fin 256) :
    (W2 m ρ c (Proc.devRef .tc main_v9_0) (ix2 n cc) : EReal) = kX0 (xA m c) (iA m c) n cc :=
  (congrFun (W2_arr m ρ c 4) (ix2 n cc)).trans
    (Cert.KArrays.arr0_4 (V1 m ρ) c (xA m c) (iA m c) (Cert.KHost.host0_x m ρ c) (Cert.KHost.host0_M m ρ c) n cc)

/-- After the first launch: the quotient. -/
theorem w2_quot (n : Fin 50000) (d : Fin 1024) :
    (W2 m ρ c (Proc.devRef .tc main_v9_1) (ix2 n d) : EReal) = kX2 (xA m c) (bA m c) (iA m c) n d :=
  (congrFun (W2_arr m ρ c 5) (ix2 n d)).trans
    (Cert.KArrays.arr0_5 (V1 m ρ) c (xA m c) (bA m c) (iA m c) (Cert.KHost.host0_x m ρ c) (Cert.KHost.host0_M m ρ c)
      (Cert.KHost.host0_MT m ρ c) (Cert.KHost.host0_B m ρ c) n d)

/-- After the first launch: the per-block column sums of the norm and of its square. -/
theorem w2_s1 (r : Fin 400) (cc : Fin 256) :
    (W2 m ρ c (Proc.devRef .tc main_v9_2) (ix2 r cc) : EReal) = kS1 (xA m c) (iA m c) r cc :=
  (congrFun (W2_arr m ρ c 6) (ix2 r cc)).trans
    (Cert.KSums.arr0_6 (V1 m ρ) c (xA m c) (iA m c) (Cert.KHost.host0_x m ρ c) (Cert.KHost.host0_M m ρ c) r cc)
theorem w2_s2 (r : Fin 400) (cc : Fin 256) :
    (W2 m ρ c (Proc.devRef .tc main_v9_3) (ix2 r cc) : EReal) = kS2 (xA m c) (iA m c) r cc :=
  (congrFun (W2_arr m ρ c 7) (ix2 r cc)).trans
    (Cert.KSums.arr0_7 (V1 m ρ) c (xA m c) (iA m c) (Cert.KHost.host0_x m ρ c) (Cert.KHost.host0_M m ρ c) r cc)

/-- The mean row the second launch reads. -/
theorem mu_eq (cc : Fin 256) : Cert.KHost.muRow m ρ c cc = kMean (xA m c) (iA m c) cc := by
  unfold Cert.KHost.muRow kMean
  exact congrArg (fun s => Ideal.div s cN) (Finset.sum_congr rfl fun r _ => w2_s1 m ρ c r cc)

theorem v3_mu (cc : Fin 256) : (V3 m ρ c main_v14 (ix2 (0 : Fin 1) cc) : EReal) = kMean (xA m c) (iA m c) cc :=
  (Cert.KHost.host1_mu m ρ c cc).trans (mu_eq m ρ c cc)

/-- The variance row the second launch reads. -/
theorem v3_va (cc : Fin 256) : (V3 m ρ c main_v21 (ix2 (0 : Fin 1) cc) : EReal) = kVar (xA m c) (iA m c) cc := by
  rw [Cert.KHost.host1_va m ρ c cc, mu_eq m ρ c cc]
  unfold kVar
  exact congrArg (fun s => max (Ideal.div s cN - kMean (xA m c) (iA m c) cc * kMean (xA m c) (iA m c) cc) 0)
    (Finset.sum_congr rfl fun r _ => w2_s2 m ρ c r cc)

/-- The first result after the second launch. -/
theorem w4_first (n : Fin 50000) (cc : Fin 256) :
    (W4 m ρ c (Proc.devRef .tc main_v22) (ix2 n cc) : EReal) = kX1 (xA m c) (iA m c) n cc :=
  (congrFun (W4_arr m ρ c 3) (ix2 n cc)).trans
    (Cert.KArrays.arr1_3 (V3 m ρ) c (kX0 (xA m c) (iA m c)) (kMean (xA m c) (iA m c)) (kVar (xA m c) (iA m c))
      (fun n' cc' => (Cert.KHost.host1_A m ρ c n' cc').trans (w2_norm m ρ c n' cc'))
      (v3_mu m ρ c) (v3_va m ρ c) n cc)

/-- The second result is the first launch's quotient, untouched afterwards. -/
theorem w4_second (n : Fin 50000) (d : Fin 1024) :
    (W4 m ρ c (Proc.devRef .tc main_v9_1) (ix2 n d) : EReal) = kX2 (xA m c) (bA m c) (iA m c) n d :=
  ((congrFun (W4_of_ne m ρ c main_v9_1 (by decide)) (ix2 n d)).trans (Cert.KHost.host1_q m ρ c n d)).trans
    (w2_quot m ρ c n d)

end Cert.KValue

end
-- ==== Proof.Consts.lean ====
/-
  The four constants the two programs share, as real numbers: three small positive offsets and the row count.
-/
import proofs.«421808_j79748952752439_3_alg».proof.Proof.Spec

noncomputable section

namespace Cert.Consts

open Idealize.ShloMosaic Cert.Spec

/-- The row count's word denotes fifty thousand. -/
theorem cN_eq : cN = ((50000 : ℝ) : EReal) := by
  unfold cN
  simp [Ideal.ofBits, Ideal.ieee, -EReal.coe_mul]; norm_num

/-- The offset under the norm's square root is a positive real. -/
theorem e1_pos : ∃ r : ℝ, 0 < r ∧ e1 = (r : EReal) := by
  unfold e1
  refine ⟨_, ?_, by simp [Ideal.ofBits, Ideal.ieee, -EReal.coe_mul]; rfl⟩
  positivity

/-- The offset added to the divisor is a positive real. -/
theorem e2_pos : ∃ r : ℝ, 0 < r ∧ e2 = (r : EReal) := by
  unfold e2
  refine ⟨_, ?_, by simp [Ideal.ofBits, Ideal.ieee, -EReal.coe_mul]; rfl⟩
  positivity

/-- The offset added to the variance is a positive real. -/
theorem e3_pos : ∃ r : ℝ, 0 < r ∧ e3 = (r : EReal) := by
  unfold e3
  refine ⟨_, ?_, by simp [Ideal.ofBits, Ideal.ieee, -EReal.coe_mul]; rfl⟩
  positivity

end Cert.Consts

end
-- ==== Proof.AlgNorm.lean ====
/-
  The channel norm and the quotient: the kernel's arithmetic and the reference's are one function.

  For real inputs the square of an entry minus itself is zero, so the second weighted sum vanishes and the first is the
  sum of the squares over the columns that hit the channel.  The norm is then the square root of a non-negative real,
  the divisor |norm + offset| + constant is a positive real, and when every channel number is in range the weighted sum
  of the divisors over the channels picks the one channel the column belongs to, which is the one the reference's
  clamped read picks.
-/
import Mathlib.Data.EReal.Basic
import Mathlib.Data.EReal.Operations
import Idealize.ShloMosaic.Lib.StableHlo.Predicate
import proofs.«421808_j79748952752439_3_alg».proof.Proof.Spec
import proofs.«421808_j79748952752439_3_alg».proof.Proof.Consts

noncomputable section

namespace Cert.AlgNorm

open Idealize.ShloMosaic Idealize.ShloMosaic.ValueIdx Idealize.ShloMosaic.StableHlo.Predicate Cert.Spec

/-- The coercion of a finite real sum is the sum of the coercions. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The square root of a non-negative real. -/
theorem sqrt_coe_nonneg (r : ℝ) (h : 0 ≤ r) : Ideal.sqrt (r : EReal) = (Real.sqrt r : EReal) := by
  rw [Ideal.sqrt_coe, if_neg (not_lt.mpr h)]

/-- The coercion of the larger of two reals is the larger of the coercions. -/
theorem coe_max (a b : ℝ) : ((max a b : ℝ) : EReal) = max (a : EReal) (b : EReal) :=
  EReal.coe_strictMono.monotone.map_max

variable (x : FVec Ideal SX .f32) (β : FVec Ideal SB .f32) (idx : IVec SI 32)

/-- The kernel's sum of squares over a channel is the reference's. -/
theorem kSsq_eq (hx : IsReal x) (n : Fin 50000) (c : Fin 256) : kSsq x idx n c = rSsq x idx n c := by
  unfold kSsq rSsq
  have h2 : ∑ d : Fin 1024, (((x (ix2 n d) : EReal) * x (ix2 n d)) - ((x (ix2 n d) : EReal) * x (ix2 n d))) * wt idx d c = 0 := by
    apply Finset.sum_eq_zero
    intro d _
    obtain ⟨r, hr⟩ := hx (ix2 n d)
    rw [hr, ← EReal.coe_mul, ← EReal.coe_sub, sub_self, EReal.coe_zero, zero_mul]
  rw [h2, add_zero]
  apply Finset.sum_congr rfl
  intro d _
  unfold wt
  split_ifs <;> simp

/-- The kernel's channel norm is the reference's. -/
theorem kX0_eq (hx : IsReal x) (n : Fin 50000) (c : Fin 256) : kX0 x idx n c = rX0 x idx n c := by
  unfold kX0 rX0
  rw [kSsq_eq x idx hx]

/-- The sum of squares over a channel is a non-negative real. -/
theorem rSsq_real (hx : IsReal x) (n : Fin 50000) (c : Fin 256) : ∃ s : ℝ, 0 ≤ s ∧ rSsq x idx n c = (s : EReal) := by
  choose r hr using hx
  refine ⟨∑ d : Fin 1024, if hit idx d c then r (ix2 n d) * r (ix2 n d) else 0, ?_, ?_⟩
  · apply Finset.sum_nonneg
    intro d _
    split_ifs
    · exact mul_self_nonneg _
    · exact le_rfl
  · unfold rSsq
    rw [coe_sum]
    apply Finset.sum_congr rfl
    intro d _
    split_ifs
    · rw [hr, EReal.coe_mul]
    · rfl

/-- The channel norm of real inputs is a non-negative real. -/
theorem rX0_real (hx : IsReal x) (n : Fin 50000) (c : Fin 256) : ∃ r : ℝ, 0 ≤ r ∧ rX0 x idx n c = (r : EReal) := by
  obtain ⟨s, hs0, hs⟩ := rSsq_real x idx hx n c
  obtain ⟨r1, h1, he⟩ := Cert.Consts.e1_pos
  refine ⟨Real.sqrt (s + r1), Real.sqrt_nonneg _, ?_⟩
  unfold rX0
  rw [hs, he, ← EReal.coe_add, sqrt_coe_nonneg _ (by linarith)]

/-- A channel's word is not negative, so the wrap leaves it alone. -/
theorem wrap_ofNat (m : ℕ) (hm : m < 256) : wrap (BitVec.ofNat 32 m) = BitVec.ofNat 32 m := by
  unfold wrap Scalar.select
  have h : ¬ (IntOp.cmpi .slt (BitVec.ofNat 32 m) 0#32 = 1) := by
    unfold IntOp.cmpi
    have := slt_ofNat_iff m 0 (by omega) (by omega)
    intro h'
    have := this.mp h'
    omega
  rw [if_neg h]

/-- A column that hits channel c is read at channel c by the clamped read. -/
theorem seg_of_hit (d : Fin 1024) (c : Fin 256) (h : hit idx d c) : seg idx d = c := by
  unfold hit at h
  apply Fin.ext
  unfold seg
  simp only
  rw [h, wrap_ofNat _ c.isLt, toInt_ofNat_small _ (by have := c.isLt; omega)]
  have := c.isLt
  simp only [Int.toNat_natCast]
  omega

/-- The kernel's divisor is the reference's. -/
theorem kDiv_eq (hx : IsReal x) (n : Fin 50000) (c : Fin 256) : kDiv x β idx n c = rDiv x β idx n c := by
  unfold kDiv rDiv
  rw [kX0_eq x idx hx]

/-- The divisor of real inputs is a real. -/
theorem kDiv_real (hx : IsReal x) (hβ : IsReal β) (n : Fin 50000) (c : Fin 256) :
    ∃ r : ℝ, kDiv x β idx n c = (r : EReal) := by
  obtain ⟨r0, _, h0⟩ := rX0_real x idx hx n c
  obtain ⟨b, hb⟩ := hβ (ix1 c)
  obtain ⟨r2, _, h2⟩ := Cert.Consts.e2_pos
  refine ⟨max (r0 + b) (-(r0 + b)) + r2, ?_⟩
  unfold kDiv
  rw [kX0_eq x idx hx, h0, hb, h2, ← EReal.coe_add, ← EReal.coe_neg, ← coe_max, ← EReal.coe_add]

/-- A column hits at most one channel. -/
theorem hit_unique (d : Fin 1024) (c c' : Fin 256) (h : hit idx d c) (h' : hit idx d c') : c = c' := by
  unfold hit at h h'
  rw [h] at h'
  have e := congrArg BitVec.toNat h'
  simp only [BitVec.toNat_ofNat] at e
  apply Fin.ext
  have := c.isLt
  have := c'.isLt
  omega

/-- The weighted sum of the divisors over the channels is the divisor of the channel the column hits. -/
theorem kDen_of_hit (hx : IsReal x) (hβ : IsReal β) (n : Fin 50000) (d : Fin 1024) (c0 : Fin 256) (h : hit idx d c0) :
    kDen x β idx n d = kDiv x β idx n c0 := by
  unfold kDen
  have h2 : ∑ c : Fin 256, (kDiv x β idx n c - kDiv x β idx n c) * wt idx d c = 0 := by
    apply Finset.sum_eq_zero
    intro c _
    obtain ⟨r, hr⟩ := kDiv_real x β idx hx hβ n c
    rw [hr, ← EReal.coe_sub, sub_self, EReal.coe_zero, zero_mul]
  rw [h2, add_zero, Finset.sum_eq_single c0]
  · unfold wt
    rw [if_pos h, mul_one]
  · intro c _ hc
    unfold wt
    rw [if_neg (fun hh => hc (hit_unique idx d c c0 hh h)), mul_zero]
  · intro hc
    exact absurd (Finset.mem_univ _) hc

/-- The kernel's quotient is the reference's. -/
theorem kX2_eq (hx : IsReal x) (hβ : IsReal β) (hidx : InRange idx) (n : Fin 50000) (d : Fin 1024) :
    kX2 x β idx n d = rX2 x β idx n d := by
  obtain ⟨c0, hc0⟩ := hidx d
  have h : hit idx d c0 := hc0
  unfold kX2 rX2
  rw [kDen_of_hit x β idx hx hβ n d c0 h, seg_of_hit idx d c0 h, kDiv_eq x β idx hx]

end Cert.AlgNorm

end
-- ==== Proof.AlgStat.lean ====
/-
  Centring and scaling a real sequence by its mean and variance, two ways.

  For reals a_0 .. a_49999 with mean M: the mean of the squares minus M squared is the mean of the squared deviations,
  which is non-negative, so flooring it at zero changes nothing; adding a positive constant keeps it positive, and
  the product with the reciprocal square root is the quotient by the square root.
-/
import proofs.«421808_j79748952752439_3_alg».proof.Proof.Spec
import proofs.«421808_j79748952752439_3_alg».proof.Proof.Consts

noncomputable section

namespace Cert.AlgStat

open Idealize.ShloMosaic Cert.Spec

/-- The mean of a sequence of reals, as the programs compute it: the sum divided by the row count. -/
def meanOf (a : Fin 50000 → ℝ) : EReal := Ideal.div (∑ k : Fin 50000, ((a k : ℝ) : EReal)) cN

/-- The coercion of a finite sum of reals is the sum of the coercions. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert b s hb ih => rw [Finset.sum_insert hb, Finset.sum_insert hb, EReal.coe_add, ih]

/-- Mean square minus squared mean is the mean squared deviation, for a finite family of N reals. -/
theorem var_identity {ι : Type} [Fintype ι] (a : ι → ℝ) (N : ℝ) (hN : N ≠ 0) (hc : (Fintype.card ι : ℝ) = N) :
    (∑ k, a k * a k) / N - (∑ k, a k) / N * ((∑ k, a k) / N)
      = (∑ k, (a k - (∑ k, a k) / N) * (a k - (∑ k, a k) / N)) / N := by
  generalize hμ : (∑ k, a k) / N = μ
  have hS : ∑ k, a k = N * μ := by rw [← hμ]; field_simp
  have h1 : ∑ k, (a k - μ) * (a k - μ) = ∑ k, a k * a k - 2 * μ * ∑ k, a k + N * (μ * μ) := by
    have h : ∀ k, (a k - μ) * (a k - μ) = a k * a k - 2 * μ * a k + μ * μ := fun k => by ring
    simp only [h]
    rw [Finset.sum_add_distrib, Finset.sum_sub_distrib, ← Finset.mul_sum, Finset.sum_const, Finset.card_univ,
      nsmul_eq_mul, hc]
  rw [h1, hS]
  field_simp
  ring

/-- The mean squared deviation is non-negative. -/
theorem dev_nonneg {ι : Type} [Fintype ι] (a : ι → ℝ) (μ N : ℝ) (hN : 0 < N) :
    0 ≤ (∑ k, (a k - μ) * (a k - μ)) / N :=
  div_nonneg (Finset.sum_nonneg fun k _ => mul_self_nonneg _) hN.le

/-- The one-pass form (mean square minus squared mean, floored at zero, reciprocal square root) is the two-pass form
    (mean squared deviation, quotient by the square root). -/
theorem stat_eq (a : Fin 50000 → ℝ) (n : Fin 50000) :
    (((a n : ℝ) : EReal) - meanOf a)
        * Ideal.rsqrt (max (Ideal.div (∑ k : Fin 50000, ((a k : ℝ) : EReal) * ((a k : ℝ) : EReal)) cN - meanOf a * meanOf a) 0 + e3)
      = Ideal.div (((a n : ℝ) : EReal) - meanOf a)
          (Ideal.sqrt (Ideal.div (∑ k : Fin 50000, (((a k : ℝ) : EReal) - meanOf a) * (((a k : ℝ) : EReal) - meanOf a)) cN + e3)) := by
  obtain ⟨r3, hr3, he3⟩ := Cert.Consts.e3_pos
  have h5 : (50000 : ℝ) ≠ 0 := by norm_num
  generalize hμ : (∑ k : Fin 50000, a k) / 50000 = μ
  have hM : meanOf a = ((μ : ℝ) : EReal) := by
    unfold meanOf
    rw [Cert.Consts.cN_eq, Ideal.div_coe h5, ← coe_sum, ← EReal.coe_mul, ← hμ, mul_one_div]
  have hsq : Ideal.div (∑ k : Fin 50000, ((a k : ℝ) : EReal) * ((a k : ℝ) : EReal)) cN
      = (((∑ k : Fin 50000, a k * a k) / 50000 : ℝ) : EReal) := by
    rw [Cert.Consts.cN_eq, Ideal.div_coe h5]
    simp only [← EReal.coe_mul]
    rw [← coe_sum, ← EReal.coe_mul, mul_one_div]
  have hdev : Ideal.div (∑ k : Fin 50000, (((a k : ℝ) : EReal) - meanOf a) * (((a k : ℝ) : EReal) - meanOf a)) cN
      = (((∑ k : Fin 50000, (a k - μ) * (a k - μ)) / 50000 : ℝ) : EReal) := by
    rw [hM, Cert.Consts.cN_eq, Ideal.div_coe h5]
    simp only [← EReal.coe_sub, ← EReal.coe_mul]
    rw [← coe_sum, ← EReal.coe_mul, mul_one_div]
  have hid : (∑ k : Fin 50000, a k * a k) / 50000 - μ * μ = (∑ k : Fin 50000, (a k - μ) * (a k - μ)) / 50000 := by
    have := var_identity a 50000 h5 (by simp)
    rw [hμ] at this
    exact this
  have hnn : 0 ≤ (∑ k : Fin 50000, (a k - μ) * (a k - μ)) / 50000 := dev_nonneg a μ 50000 (by norm_num)
  generalize hv : (∑ k : Fin 50000, (a k - μ) * (a k - μ)) / 50000 = v at hid hnn hdev
  rw [hsq, hdev, hM, he3, ← EReal.coe_mul, ← EReal.coe_sub, ← EReal.coe_sub, hid,
    max_eq_left (EReal.coe_nonneg.mpr hnn), ← EReal.coe_add]
  have hw : 0 < v + r3 := by linarith
  have hs : Real.sqrt (v + r3) ≠ 0 := (Real.sqrt_pos.mpr hw).ne'
  rw [Ideal.rsqrt_coe, Ideal.sqrt_coe, if_neg (not_lt.mpr hw.le), if_neg hw.ne', if_neg (not_lt.mpr hw.le),
    Ideal.div_coe hs, one_div]

end Cert.AlgStat

end
-- ==== Proof.AlgBlocks.lean ====
/-
  A sum over 50000 rows, taken as 50 block sums of 1000 rows laid out one block per 8 rows of a 400-row array
  (the block's sum in the first of its 8 rows, zero in the other seven), is the sum over all rows.
-/
import proofs.«421808_j79748952752439_3_alg».proof.Proof.Spec
import Mathlib.Algebra.BigOperators.Fin

noncomputable section

namespace Cert.AlgBlocks

open Idealize.ShloMosaic Cert.Spec

/-- Only the first row of each group of 8 carries a term: the 400-row sum is the sum over the 50 blocks. -/
theorem sum_first_rows {M : Type*} [AddCommMonoid M] (h : Fin 50 → M) :
    (∑ ρ : Fin 400, if ρ.val % 8 = 0 then h (blkOf ρ) else 0) = ∑ t : Fin 50, h t := by
  rw [← Finset.sum_filter]
  refine Finset.sum_nbij' (fun ρ => blkOf ρ)
    (fun t => (⟨8 * t.val, by have := t.isLt; omega⟩ : Fin 400)) ?_ ?_ ?_ ?_ ?_
  · intro ρ _
    exact Finset.mem_univ _
  · intro t _
    simp only [Finset.mem_filter, Finset.mem_univ, true_and]
    omega
  · intro ρ hρ
    simp only [Finset.mem_filter, Finset.mem_univ, true_and] at hρ
    apply Fin.ext
    simp only [blkOf]
    omega
  · intro t _
    apply Fin.ext
    simp only [blkOf]
    omega
  · intro ρ _
    rfl

/-- The 50 blocks of 1000 rows tile the 50000 rows. -/
theorem sum_rows {M : Type*} [AddCommMonoid M] (f : Fin 50000 → M) :
    (∑ t : Fin 50, ∑ i : Fin 1000, f (rowOf t i)) = ∑ n : Fin 50000, f n := by
  rw [← Fintype.sum_prod_type' (f := fun t i => f (rowOf t i))]
  refine Finset.sum_nbij' (fun p : Fin 50 × Fin 1000 => rowOf p.1 p.2)
    (fun n : Fin 50000 => ((⟨n.val / 1000, by have := n.isLt; omega⟩ : Fin 50),
      (⟨n.val % 1000, by omega⟩ : Fin 1000))) ?_ ?_ ?_ ?_ ?_
  · intro p _
    exact Finset.mem_univ _
  · intro n _
    exact Finset.mem_univ _
  · intro p _
    obtain ⟨t, i⟩ := p
    have ht := t.isLt
    have hi := i.isLt
    apply Prod.ext
    · apply Fin.ext
      simp only [rowOf]
      omega
    · apply Fin.ext
      simp only [rowOf]
      omega
  · intro n _
    apply Fin.ext
    simp only [rowOf]
    omega
  · intro p _
    rfl

theorem sum_blocks (f : Fin 50000 → EReal) :
    (∑ ρ : Fin 400, if ρ.val % 8 = 0 then ∑ i : Fin 1000, f (rowOf (blkOf ρ) i) else 0) = ∑ n : Fin 50000, f n := by
  rw [← sum_rows f]
  exact sum_first_rows (fun t => ∑ i : Fin 1000, f (rowOf t i))

end Cert.AlgBlocks

end
-- ==== Proof.AlgX1.lean ====
/-
  The first result: the kernel's one-pass centring and scaling of the channel norm is the reference's two-pass one.

  The channel norms of a column are non-negative reals; the kernel's column sums, taken block by block through the
  400-row arrays, are the sums over all rows; the rest is the identity between the two forms of the variance.
-/
import proofs.«421808_j79748952752439_3_alg».proof.Proof.AlgNorm
import proofs.«421808_j79748952752439_3_alg».proof.Proof.AlgStat
import proofs.«421808_j79748952752439_3_alg».proof.Proof.AlgBlocks

noncomputable section

namespace Cert.AlgX1

open Idealize.ShloMosaic Idealize.ShloMosaic.ValueIdx Cert.Spec

variable (x : FVec Ideal SX .f32) (idx : IVec SI 32)

theorem kX1_eq (hx : IsReal x) (n : Fin 50000) (c : Fin 256) : kX1 x idx n c = rX1 x idx n c := by
  choose a _ ha using fun k => Cert.AlgNorm.rX0_real x idx hx k c
  have hk : ∀ k, kX0 x idx k c = ((a k : ℝ) : EReal) := fun k => (Cert.AlgNorm.kX0_eq x idx hx k c).trans (ha k)
  have hS1 : (∑ r : Fin 400, kS1 x idx r c) = ∑ k : Fin 50000, ((a k : ℝ) : EReal) := by
    refine (Cert.AlgBlocks.sum_blocks (fun k => kX0 x idx k c)).trans ?_
    exact Finset.sum_congr rfl fun k _ => hk k
  have hS2 : (∑ r : Fin 400, kS2 x idx r c) = ∑ k : Fin 50000, ((a k : ℝ) : EReal) * ((a k : ℝ) : EReal) := by
    refine (Cert.AlgBlocks.sum_blocks (fun k => kX0 x idx k c * kX0 x idx k c)).trans ?_
    exact Finset.sum_congr rfl fun k _ => by rw [hk k]
  have hkm : kMean x idx c = Cert.AlgStat.meanOf a := by
    unfold kMean Cert.AlgStat.meanOf
    rw [hS1]
  have hrm : rMean x idx c = Cert.AlgStat.meanOf a := by
    unfold rMean Cert.AlgStat.meanOf
    exact congrArg (fun s => Ideal.div s cN) (Finset.sum_congr rfl fun k _ => ha k)
  have hrv : rVar x idx c
      = Ideal.div (∑ k : Fin 50000, (((a k : ℝ) : EReal) - Cert.AlgStat.meanOf a) * (((a k : ℝ) : EReal) - Cert.AlgStat.meanOf a)) cN := by
    unfold rVar
    exact congrArg (fun s => Ideal.div s cN) (Finset.sum_congr rfl fun k _ => by rw [ha k, hrm])
  unfold kX1 rX1 kVar
  rw [hkm, hS2, hk n, hrv, ha n, hrm]
  exact Cert.AlgStat.stat_eq a n

end Cert.AlgX1

end
-- ==== Proof.RefNorm.lean ====
/-
  The reference read at an entry: the channel norm and the first result.

  The reference scatters the transposed squares into a zero array of 256 x 50000 by the channel numbers (an update
  whose channel number is outside 0..255 is dropped), transposes back, adds a constant and takes the square root: at
  (n, c) that is the square root of the sum of the squares over the columns that hit channel c, plus the constant.
  The first result centres the norm by its mean over the rows and divides by the square root of the mean squared
  deviation plus a constant.
-/
import proofs.«421808_j79748952752439_3_alg».proof.Proof.Gen.ReferenceIdeal.Read
import proofs.«421808_j79748952752439_3_alg».proof.Proof.Spec
import Idealize.ShloMosaic.Lib.StableHlo.Predicate

noncomputable section

namespace Cert.RefNorm

open Idealize.ShloMosaic Idealize.ShloMosaic.ValueIdx Cert.ReferenceIdeal Cert.ReferenceIdeal.Read Cert.Spec

variable (x : FVec Ideal S50000x1024 .f32) (idx : IVec S1024 32)

/-! ## Where an update lands

  Update (d, n') starts at row (the channel number of column d, read signed) and column 0 of the 256 x 50000 array, and
  its window coordinate is 0 on the rows and n' on the columns: it lands at (that channel number, n') when the channel
  number is one of 0..255, and nowhere otherwise. -/

/-- The scatter's dimension numbers. -/
abbrev scatterD := scatter_S256x50000_S1024x1_S1024x50000_1_0_0_1

/-- The start on the rows: the channel number at row d of the index column, read signed. -/
theorem start0 (d : Fin 1024) (n' : Fin 50000) (ind : IVec S1024x1 32) :
    scatterD.start (ix2 d n') ind 0 = (ind (ix2 d (0 : Fin 1))).toInt := by
  unfold ScatterDims.start
  rw [dif_pos (show (0 : Fin 2) ∈ scatterD.scatterDimsToOperandDims from List.mem_singleton.mpr rfl)]
  congr 2
  funext b
  refine Fin.ext ?_
  match b with
  | ⟨0, _⟩ => rfl
  | ⟨1, _⟩ => rfl

/-- The start on the columns is 0. -/
theorem start1 (d : Fin 1024) (n' : Fin 50000) (ind : IVec S1024x1 32) :
    scatterD.start (ix2 d n') ind 1 = 0 := by
  unfold ScatterDims.start
  rw [dif_neg (show (1 : Fin 2) ∉ scatterD.scatterDimsToOperandDims by decide)]

/-- The window coordinate on the rows is 0. -/
theorem window0 (d : Fin 1024) (n' : Fin 50000) : scatterD.window (ix2 d n') 0 = 0 := by
  unfold ScatterDims.window
  rw [dif_neg (show (0 : Fin 2) ∉ scatterD.sKept by decide)]

/-- The window coordinate on the columns is the update's column. -/
theorem window1 (d : Fin 1024) (n' : Fin 50000) : scatterD.window (ix2 d n') 1 = n'.val := by
  unfold ScatterDims.window
  rw [dif_pos (show (1 : Fin 2) ∈ scatterD.sKept by decide)]
  rfl

/-- Update (d, n') lands at (c, n) exactly when the channel number of column d, read signed, is c and n' = n. -/
theorem resultIdx_iff (d : Fin 1024) (n' : Fin 50000) (c : Fin 256) (n : Fin 50000) (ind : IVec S1024x1 32) :
    scatterD.resultIdx? (ix2 d n') ind = some (ix2 c n) ↔ (ind (ix2 d (0 : Fin 1))).toInt = (c.val : Int) ∧ n' = n := by
  have hs0 : S256x50000.size 0 = 256 := rfl
  have hs1 : S256x50000.size 1 = 50000 := rfl
  unfold ScatterDims.resultIdx?
  split
  · next h =>
    rw [Option.some.injEq]
    have h0 := (h 0).1
    simp only [start0, window0] at h0
    constructor
    · intro e
      have e0 := congrArg (fun f => (f 0).val) e
      have e1 := congrArg (fun f => (f 1).val) e
      simp only [start0, start1, window0, window1] at e0 e1
      change _ = c.val at e0
      change _ = n.val at e1
      refine ⟨by omega, Fin.ext (by omega)⟩
    · rintro ⟨e0, e1⟩
      funext a
      refine Fin.ext ?_
      match a with
      | ⟨0, _⟩ =>
        show (scatterD.start (ix2 d n') ind 0 + ↑(scatterD.window (ix2 d n') 0)).toNat = c.val
        rw [start0, window0]; omega
      | ⟨1, _⟩ =>
        show (scatterD.start (ix2 d n') ind 1 + ↑(scatterD.window (ix2 d n') 1)).toNat = n.val
        rw [start1, window1, e1]; omega
  · next h =>
    refine iff_of_false (by simp) ?_
    rintro ⟨e0, e1⟩
    refine h fun a => ?_
    match a with
    | ⟨0, _⟩ =>
      show 0 ≤ scatterD.start (ix2 d n') ind 0 + ↑(scatterD.window (ix2 d n') 0)
        ∧ scatterD.start (ix2 d n') ind 0 + ↑(scatterD.window (ix2 d n') 0) < ↑(S256x50000.size 0)
      rw [start0, window0, hs0, e0]; have := c.isLt; omega
    | ⟨1, _⟩ =>
      show 0 ≤ scatterD.start (ix2 d n') ind 1 + ↑(scatterD.window (ix2 d n') 1)
        ∧ scatterD.start (ix2 d n') ind 1 + ↑(scatterD.window (ix2 d n') 1) < ↑(S256x50000.size 1)
      rw [start1, window1, hs1]; have := n'.isLt; omega

/-! ## The scattered sum at an entry -/

/-- Row d of the index column is the channel number of column d. -/
theorem v3_at (d : Fin 1024) : val_main_v3 (F := Ideal) idx (ix2 d (0 : Fin 1)) = idx (ix1 d) := by
  rw [val_main_v3_apply]
  congr 1
  funext a
  match a with
  | ⟨0, _⟩ => rfl

/-- The transposed squares at (d, n): the square of x at (n, d). -/
theorem v1_at (d : Fin 1024) (n : Fin 50000) :
    (val_main_v1 (F := Ideal) x (ix2 d n) : EReal) = (x (ix2 n d) : EReal) * x (ix2 n d) := by
  rw [val_main_v1_apply, val_main_v0_apply]
  have e : idx_main_v1 (ix2 d n) = ix2 n d := by
    funext a
    match a with
    | ⟨0, _⟩ => rfl
    | ⟨1, _⟩ => rfl
  rw [e]
  rfl

/-- A channel number read signed is c (below 256) exactly when it is the word of c. -/
theorem toInt_eq_iff_hit (d : Fin 1024) (c : Fin 256) :
    (idx (ix1 d)).toInt = (c.val : Int) ↔ hit idx d c := by
  unfold hit
  have hc := c.isLt
  have h2 : (BitVec.ofNat 32 c.val).toInt = (c.val : Int) := StableHlo.Predicate.toInt_ofNat_small c.val (by omega)
  constructor
  · intro e; exact BitVec.eq_of_toInt_eq (by rw [e, h2])
  · intro e; rw [e, h2]

/-- The scattered array at (c, n): zero plus the sum of the updates that land there, which are the squares of row n
    over the columns that hit channel c. -/
theorem v4_apply (n : Fin 50000) (c : Fin 256) :
    (val_main_v4 (F := Ideal) x idx (ix2 c n) : EReal) = rSsq x idx n c := by
  unfold val_main_v4 Host.scatterAdd
  rw [Ideal.hostScatterAdd_def]
  unfold Ideal.hostScatterAdd
  rw [val_main_v2_apply, val_main_cst_apply, Ideal.ofBits_def, Ideal.ofBits_zero_f32, zero_add, Finset.sum_filter, sum_idx2]
  unfold rSsq
  refine Finset.sum_congr rfl fun d _ => ?_
  simp only [resultIdx_iff, v3_at, toInt_eq_iff_hit, ite_and]
  by_cases h : hit idx d c
  · simp only [if_pos h, Finset.sum_ite_eq', Finset.mem_univ, v1_at, if_true]
  · simp only [if_neg h, Finset.sum_const_zero]

/-- The reference's channel norm at (n, c). -/
theorem v8_apply (n : Fin 50000) (c : Fin 256) :
    (val_main_v8 (F := Ideal) x idx (ix2 n c) : EReal) = rX0 x idx n c := by
  rw [val_main_v8_apply, val_main_v7_apply, val_main_v5_apply, val_main_v6_apply, val_main_cst_0_apply]
  have e : idx_main_v5 (ix2 n c) = ix2 c n := by
    funext a
    match a with
    | ⟨0, _⟩ => rfl
    | ⟨1, _⟩ => rfl
  rw [e, v4_apply, Ideal.hostUnary_sqrt_def, Ideal.addf_def, Ideal.ofBits_def]
  rfl

/-! ## The mean, the mean squared deviation, and the first result -/

/-- The mean of the norm over the rows, at channel c. -/
theorem v11_at (c : Fin 256) : (val_main_v11 (F := Ideal) x idx (ix1 c) : EReal) = rMean x idx c := by
  rw [val_main_v11_apply]
  rw [val_main_v9_apply]
  rw [val_main_v10_apply]
  rw [val_main_cst_2_apply]
  rw [val_main_cst_1_apply]
  rw [Ideal.ofBits_def, Ideal.ofBits_def]
  rw [Ideal.ofBits_zero_f32]
  rw [zero_add]
  rw [Ideal.hostDivf_def]
  unfold rMean cN
  have e : ∀ k : Fin 50000, idx_main_v9 (ix1 c) k = ix2 k c := by
    intro k
    funext a
    match a with
    | ⟨0, _⟩ => rfl
    | ⟨1, _⟩ => rfl
  simp only [e, v8_apply]

/-- The mean laid along the rows (the copy the deviations are taken from). -/
theorem v13_at (n : Fin 50000) (c : Fin 256) :
    (val_main_v13 (F := Ideal) x idx (ix2 n c) : EReal) = rMean x idx c := by
  rw [val_main_v13_apply, val_main_v12_apply]
  have e : idx_main_v12 (idx_main_v13 (ix2 n c)) = ix1 c := by
    funext a
    match a with
    | ⟨0, _⟩ => rfl
  rw [e, v11_at]

/-- The mean laid along the rows (the copy the first result is centred by). -/
theorem v20_at (n : Fin 50000) (c : Fin 256) :
    (val_main_v20 (F := Ideal) x idx (ix2 n c) : EReal) = rMean x idx c := by
  rw [val_main_v20_apply, val_main_v19_apply]
  have e : idx_main_v19 (idx_main_v20 (ix2 n c)) = ix1 c := by
    funext a
    match a with
    | ⟨0, _⟩ => rfl
  rw [e, v11_at]

/-- The mean squared deviation of the norm over the rows, at channel c. -/
theorem v18_at (c : Fin 256) : (val_main_v18 (F := Ideal) x idx (ix1 c) : EReal) = rVar x idx c := by
  rw [val_main_v18_apply]
  rw [val_main_v16_apply]
  rw [val_main_v17_apply]
  rw [val_main_cst_4_apply]
  rw [val_main_cst_3_apply]
  rw [Ideal.ofBits_def, Ideal.ofBits_def]
  rw [Ideal.ofBits_zero_f32]
  rw [zero_add]
  rw [Ideal.hostDivf_def]
  unfold rVar cN
  have e : ∀ k : Fin 50000, idx_main_v16 (ix1 c) k = ix2 k c := by
    intro k
    funext a
    match a with
    | ⟨0, _⟩ => rfl
    | ⟨1, _⟩ => rfl
  simp only [e, val_main_v15_apply, val_main_v14_apply, v13_at, v8_apply, Ideal.mulf_def, Ideal.subf_def]

/-- The divisor laid along the rows: the square root of the mean squared deviation plus the constant. -/
theorem v26_at (n : Fin 50000) (c : Fin 256) :
    (val_main_v26 (F := Ideal) x idx (ix2 n c) : EReal) = Ideal.sqrt (rVar x idx c + e3) := by
  rw [val_main_v26_apply, val_main_v25_apply]
  have e : idx_main_v25 (idx_main_v26 (ix2 n c)) = ix1 c := by
    funext a
    match a with
    | ⟨0, _⟩ => rfl
  rw [e, val_main_v24_apply, val_main_v23_apply, v18_at, val_main_v22_apply, val_main_cst_5_apply,
    Ideal.ofBits_def, Ideal.hostUnary_sqrt_def, Ideal.addf_def]
  rfl

/-- The reference's first result at (n, c). -/
theorem v27_apply (n : Fin 50000) (c : Fin 256) :
    (val_main_v27 (F := Ideal) x idx (ix2 n c) : EReal) = rX1 x idx n c := by
  rw [val_main_v27_apply, val_main_v21_apply, v26_at, v20_at, v8_apply, Ideal.hostDivf_def, Ideal.subf_def]
  rfl

end Cert.RefNorm

end
-- ==== Proof.RefQuot.lean ====
/-
  The reference read at an entry: the second result.

  The divisor |norm + offset| + constant is read, for column d, at the channel the gather picks: the column's channel
  number, moved up by 256 when negative, clamped into 0..255.  The second result is the input divided by it.
-/
import proofs.«421808_j79748952752439_3_alg».proof.Proof.RefNorm

noncomputable section

namespace Cert.RefQuot

open Idealize.ShloMosaic Idealize.ShloMosaic.ValueIdx Cert.ReferenceIdeal Cert.ReferenceIdeal.Read Cert.Spec

/-- The gather's dimension numbers: operand 50000 x 256, start indices 1024 x 1, result 50000 x 1024; the result's
    axis 0 is the one offset axis, the operand's axis 1 is collapsed and is the one the start index names. -/
abbrev gDims : GatherDims S50000x256 S1024x1 S50000x1024 := gather_S50000x256_S1024x1_S50000x1024_0_1_n_n_1_1_500001

/-- The operand entry the gather reads for result entry (n, d): row n (axis 0 is not start-indexed, and its offset
    is the result's coordinate on the offset axis), column the start index of d read signed and clamped into 0..255
    (axis 1 is collapsed: no offset). -/
theorem gather_idx {w : Nat} (I : IVec S1024x1 w) (n : Fin 50000) (d : Fin 1024) :
    gDims.operandIdx (ix2 n d) I
      = ix2 n ⟨min (I (ix2 d 0)).toInt.toNat 255, by omega⟩ := by
  funext a
  refine Fin.ext ?_
  match a with
  | ⟨0, h0⟩ =>
    show gDims.start (ix2 n d) I (0 : Fin 2) + gDims.batchCoord (ix2 n d) (0 : Fin 2) + gDims.offCoord (ix2 n d) (0 : Fin 2) = n.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, h1⟩ =>
    show gDims.start (ix2 n d) I (1 : Fin 2) + gDims.batchCoord (ix2 n d) (1 : Fin 2) + gDims.offCoord (ix2 n d) (1 : Fin 2)
      = min (I (ix2 d 0)).toInt.toNat 255
    rw [GatherDims.batchCoord_eq_zero _ _ _ List.not_mem_nil,
      GatherDims.offCoord_eq_zero _ _ _ (by decide)]
    unfold GatherDims.start
    rw [dif_pos (by decide)]
    simp only [Nat.add_zero]
    have hsi : gDims.siIdx (ix2 n d) ⟨List.idxOf (1 : Fin 2) gDims.startIndexMap,
        List.idxOf_lt_length_iff.2 (by decide)⟩ = ix2 d 0 := by
      funext b; refine Fin.ext ?_
      match b with
      | ⟨0, _⟩ => rfl
      | ⟨1, _⟩ => rfl
    rw [hsi]
    rfl

variable (x : FVec Ideal S50000x1024 .f32) (β : FVec Ideal S256 .f32) (idx : IVec S1024 32)

/-- The start index of column d: its channel number, moved up by 256 when negative. -/
theorem v39_apply (d : Fin 1024) :
    val_main_v39 (F := Ideal) idx (ix2 d 0) = wrap (idx (ix1 d)) := by
  rw [val_main_v39_apply]
  have hi : idx_main_v39 (ix2 d (0 : Fin 1)) = ix1 d := by
    funext a; match a with | ⟨0, _⟩ => rfl
  rw [hi, val_main_v38_apply, val_main_v35_apply, val_main_v37_apply, val_main_v34_apply, val_main_v36_apply,
    val_main_c_apply, val_main_c_7_apply]
  rfl

/-- The divisor array at (n, c): |norm + offset| + constant. -/
theorem v33_apply (n : Fin 50000) (c : Fin 256) :
    (val_main_v33 (F := Ideal) x β idx (ix2 n c) : EReal) = rDiv x β idx n c := by
  rw [val_main_v33_apply, val_main_v31_apply, val_main_v30_apply, val_main_v32_apply, val_main_cst_6_apply,
    val_main_v29_apply, val_main_v28_apply]
  have hi : idx_main_v28 (idx_main_v29 (ix2 n c)) = ix1 c := by
    funext a; match a with | ⟨0, _⟩ => rfl
  rw [hi]
  show max ((val_main_v8 (F := Ideal) x idx (ix2 n c) : EReal) + β (ix1 c))
      (-((val_main_v8 (F := Ideal) x idx (ix2 n c) : EReal) + β (ix1 c))) + e2 = _
  rw [Cert.RefNorm.v8_apply]
  rfl

/-- The gathered divisor at (n, d): the divisor array at the channel the gather picks for column d. -/
theorem v40_apply (n : Fin 50000) (d : Fin 1024) :
    (val_main_v40 (F := Ideal) x β idx (ix2 n d) : EReal) = rDiv x β idx n (seg idx d) := by
  show (val_main_v33 (F := Ideal) x β idx (gDims.operandIdx (ix2 n d) (val_main_v39 (F := Ideal) idx)) : EReal) = _
  rw [gather_idx]
  have hc : (⟨min (val_main_v39 (F := Ideal) idx (ix2 d 0)).toInt.toNat 255, by omega⟩ : Fin 256) = seg idx d := by
    refine Fin.ext ?_
    show min (val_main_v39 (F := Ideal) idx (ix2 d 0)).toInt.toNat 255 = min (wrap (idx (ix1 d))).toInt.toNat 255
    rw [v39_apply]
  rw [hc, v33_apply]

/-- The reference's second result at (n, d). -/
theorem v41_apply (n : Fin 50000) (d : Fin 1024) :
    (val_main_v41 (F := Ideal) x β idx (ix2 n d) : EReal) = rX2 x β idx n d := by
  rw [val_main_v41_apply]
  show Ideal.div (x (ix2 n d)) (val_main_v40 (F := Ideal) x β idx (ix2 n d) : EReal) = _
  rw [v40_apply]
  rfl

end Cert.RefQuot

end
-- ==== Proof.PreDecode.lean ====
/-
  What the precondition says of the inputs: every entry of the two float inputs is a real number (its absolute value
  is below +infinity), and every channel number lies in 0..255.
-/
import proofs.«421808_j79748952752439_3_alg».proof.Pre_finite_inputs
import proofs.«421808_j79748952752439_3_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.Spec

/-- The word of +infinity denotes the top of the extended reals. -/
theorem inf_eq_top : Ideal.ofBits .f32 0x7F800000#32 = (⊤ : EReal) := by
  simp [Ideal.ofBits, Ideal.ieee]

/-- An extended real whose absolute value is below the top is a real number. -/
theorem real_of_abs_lt (a : EReal) (h : Ideal.cmp .olt (max a (-a)) ⊤ = 1#1) : ∃ r : ℝ, a = (r : EReal) := by
  simp only [Ideal.cmp, StableHlo.Predicate.ofBool_eq_one_iff, decide_eq_true_eq] at h
  induction a using EReal.rec with
  | bot => simp at h
  | top => simp at h
  | coe r => exact ⟨r, rfl⟩

/-- A word at least 0 and below 256, signed, is the word of one of the 256 channels. -/
theorem chan_of_cmp (a : BitVec 32) (h0 : IntOp.cmpi .sge a 0#32 = 1#1) (h1 : IntOp.cmpi .slt a 256#32 = 1#1) :
    ∃ c : Fin 256, a = BitVec.ofNat 32 c.val := by
  simp only [IntOp.cmpi, StableHlo.Predicate.ofBool_eq_one_iff, BitVec.sle_iff_toInt_le, BitVec.slt_iff_toInt_lt] at h0 h1
  have e0 : (0#32 : BitVec 32).toInt = 0 := by decide
  have e1 : (256#32 : BitVec 32).toInt = 256 := by decide
  rw [e0] at h0; rw [e1] at h1
  refine ⟨⟨a.toInt.toNat, by omega⟩, ?_⟩
  apply BitVec.eq_of_toInt_eq
  rw [StableHlo.Predicate.toInt_ofNat_small _ (by simp only; omega)]
  simp only
  omega

variable [Cert.Pre_finite_inputs.Facts]

theorem fn_facts (x : FVec Ideal Cert.Pre_finite_inputs.S50000x1024 .f32) (β : FVec Ideal Cert.Pre_finite_inputs.S256 .f32)
    (idx : IVec Cert.Pre_finite_inputs.S1024 32)
    (h : Cert.Pre_finite_inputs.fn (F := Ideal) x β idx = fun _ => 1#1) :
    IsReal x ∧ IsReal β ∧ InRange idx := by
  have h0 := congrFun h ValueIdx.ix0
  dsimp only [Cert.Pre_finite_inputs.fn] at h0
  haveI : Subsingleton Cert.Pre_finite_inputs.S_.Idx := ⟨fun a b => funext fun d => d.elim0⟩
  obtain ⟨h12, h3⟩ := IntOp.andi_eq_one.1 h0
  obtain ⟨h1, h2⟩ := IntOp.andi_eq_one.1 h12
  refine ⟨fun i => ?_, fun i => ?_, fun d => ?_⟩
  · have e := Host.reduce_andi_all _ _ _ _ _ h1 i
    exact real_of_abs_lt (x i) (by rw [← inf_eq_top]; exact e)
  · have e := Host.reduce_andi_all _ _ _ _ _ h2 i
    exact real_of_abs_lt (β i) (by rw [← inf_eq_top]; exact e)
  · have e := Host.reduce_andi_all _ _ _ _ _ h3 (ix1 d)
    obtain ⟨ea, eb⟩ := IntOp.andi_eq_one.1 e
    exact chan_of_cmp (idx (ix1 d)) ea eb

end Cert.PreDecode

end
-- ==== Proof.lean ====
/-
  The certificate: a segment norm over channels, its batch normalisation, and the quotient of the input by a gathered
  divisor — a two-launch kernel against its reference, equal on the extended reals.

  Under the precondition the two float inputs are real and every channel number is one of the 256 channels.  The
  channel norm is the square root of the sum of the squares over the channel's columns plus a constant: the kernel takes
  the sum as a product with 0/1 weights (twice: of the squares and of the squares minus themselves, which vanish), the
  reference as a scatter by channel.  The first result centres and scales the norm by its mean and variance over the
  rows: the kernel from block sums, as mean square minus squared mean floored at zero and a reciprocal square root; the
  reference as the mean squared deviation and a quotient by the square root.  The second result divides the input by
  |norm + offset| + constant of the column's channel: the kernel by a product with the transposed weights, the reference
  by a gather whose clamped read is the channel itself when the numbers are in range.
  The frames are the generated ones (the reference's from its run); the round trips through bfloat16 that the idealized
  kernel drops are the rule's two statements.
-/
import proofs.«421808_j79748952752439_3_alg».proof.Defs
import proofs.«421808_j79748952752439_3_alg».proof.Proof.Gen.Kernel
import proofs.«421808_j79748952752439_3_alg».proof.Proof.Gen.Kernel.Skeleton
import proofs.«421808_j79748952752439_3_alg».proof.Proof.Gen.Kernel.Launch
import proofs.«421808_j79748952752439_3_alg».proof.Proof.Gen.Kernel.Points
import proofs.«421808_j79748952752439_3_alg».proof.Proof.Gen.Kernel.Frame
import proofs.«421808_j79748952752439_3_alg».proof.Proof.Gen.KernelIdeal
import proofs.«421808_j79748952752439_3_alg».proof.Proof.Gen.KernelIdeal.Skeleton
import proofs.«421808_j79748952752439_3_alg».proof.Proof.Gen.KernelIdeal.Launch
import proofs.«421808_j79748952752439_3_alg».proof.Proof.Gen.KernelIdeal.Points
import proofs.«421808_j79748952752439_3_alg».proof.Proof.Gen.KernelIdeal.Frame
import proofs.«421808_j79748952752439_3_alg».proof.Proof.Gen.ReferenceIdeal
import proofs.«421808_j79748952752439_3_alg».proof.Proof.Gen.ReferenceIdeal.Run
import proofs.«421808_j79748952752439_3_alg».proof.Proof.Gen.ReferenceIdeal.Read
import proofs.«421808_j79748952752439_3_alg».proof.Proof.Gen.Pre_finite_inputs
import proofs.«421808_j79748952752439_3_alg».proof.Proof.KRun
import proofs.«421808_j79748952752439_3_alg».proof.Proof.KValue
import proofs.«421808_j79748952752439_3_alg».proof.Proof.AlgNorm
import proofs.«421808_j79748952752439_3_alg».proof.Proof.AlgX1
import proofs.«421808_j79748952752439_3_alg».proof.Proof.RefNorm
import proofs.«421808_j79748952752439_3_alg».proof.Proof.RefQuot
import proofs.«421808_j79748952752439_3_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The two bfloat16 round trips the idealized kernel drops. -/
theorem preserves : Cert.preserves_Kernel_KernelIdeal :=
  ⟨IdealRules.truncf_extf.statement _ .f32 .bf16, IdealRules.truncf_extf.statement _ .f32 .bf16⟩

/-- Both programs end with the kernel's two result arrays: entry by entry the reference's stages are the kernel's. -/
theorem algebraic : Cert.algebraic_KernelIdeal_ReferenceIdeal := by
  intro m ρ m' ρ' hpre hagree
  refine ⟨fun c => Cert.KernelIdeal.Gen.V4 m ρ c Cert.KernelIdeal.main_v22,
    fun c => Cert.KernelIdeal.Gen.V4 m ρ c Cert.KernelIdeal.main_v9_1,
    Cert.KernelIdeal.RunValues.run_values (F := Ideal) m ρ, ?_⟩
  refine (θ_run Cert.ReferenceIdeal.defs _ _).mono (fun r h c => ?_) (Cert.ReferenceIdeal.Value.run (F := Ideal) m' ρ')
  obtain ⟨h27, h41, ha0, ha1, ha2⟩ := h c
  obtain ⟨e0, e1, e2⟩ := hagree c
  obtain ⟨hx, hb, hi⟩ := Cert.PreDecode.fn_facts _ _ _ (hpre c)
  refine ⟨?_, ?_, ha0, ha1, ha2⟩
  · rw [h27, Cert.ReferenceIdeal.Read.val_main_v27_eq, e0, e2]
    funext i
    obtain ⟨n, cc, rfl⟩ : ∃ (n : Fin 50000) (cc : Fin 256), i = ix2 n cc := ⟨i 0, i 1, eq_ix2 i⟩
    exact ((Cert.RefNorm.v27_apply _ _ n cc).trans (Cert.AlgX1.kX1_eq _ _ hx n cc).symm).trans
      (Cert.KValue.w4_first m ρ c n cc).symm
  · rw [h41, Cert.ReferenceIdeal.Read.val_main_v41_eq, e0, e1, e2]
    funext i
    obtain ⟨n, d, rfl⟩ : ∃ (n : Fin 50000) (d : Fin 1024), i = ix2 n d := ⟨i 0, i 1, eq_ix2 i⟩
    exact ((Cert.RefQuot.v41_apply _ _ _ n d).trans (Cert.AlgNorm.kX2_eq _ _ _ hx hb hi n d).symm).trans
      (Cert.KValue.w4_second m ρ c n d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
